-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x1024x1024 .f32) (main_arg1 : FVec F S8x1024x1024 .f32) (main_arg2 : FVec F S8x1024x1024 .f32) (main_arg3 : FVec F S8x1024x1024 .f32) (main_arg4 : FVec F S1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_v13 main_v16
-- ==== Kernel.lean ====
abbrev S8x1024x1024 : Shape := ⟨3, ![8, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 6
  | .vmem => 16
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S1024x1024, .f32⟩
  | .hbm, ⟨5, _⟩ => ⟨S8x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x512x1024, .f32⟩
  | .local _ .vmem, ⟨15, _⟩ => ⟨S1x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli c64_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli c64_i32 v0
  let c127_i32 : BitVec 32 := 127#32
  let v2 : BitVec 32 := Scalar.minsi v1 c127_i32
  let c0_i32 : BitVec 32 := 0#32
  let c0_i32_0 : BitVec 32 := 0#32
  ![arg1.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  inb_S1x8x1024_S1x1x1024_0_7_0 : ∀ a, (![0, 7, 0] : Fin 3 → Nat) a + S1x1x1024.size a ≤ S1x8x1024.size a
  h_S1x1x1024 : 0 < S1x1x1024.numel
  shapeCasts_S1x1x1024_S1x1024 : S1x1x1024.ShapeCasts S1x1024
  inb_S1x8x1024_S1x1x1024_0_0_0 : ∀ a, (![0, 0, 0] : Fin 3 → Nat) a + S1x1x1024.size a ≤ S1x8x1024.size a
  shapeCasts_S1x1024_S1x1024 : S1x1024.ShapeCasts S1x1024
  broadcasts_S1x1024_S512x1024 : S1x1024.Broadcasts S512x1024
  iota_S512x1024_d0_w32 : S512x1024.Iotas .tc 32 [0]
  iota_S512x1024_d1_w32 : S512x1024.Iotas .tc 32 [1]
  rotates_S512x1024_d0 : S512x1024.Rotates 0 none
  rotates_S512x1024_d1 : S512x1024.Rotates 1 none
  shapeCasts_S512x1024_S1x512x1024 : S512x1024.ShapeCasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .f32 = 32 ∨ (Rect.block (s := S8x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x1024x1024.size a
  hwx0_1 : ∀ i : grid0.Coords, EltTy.bits .f32 = 32 ∨ (Rect.block (s := S8x1024x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x1024x1024.size a
  hwx0_2 : ∀ i : grid0.Coords, EltTy.bits .f32 = 32 ∨ (Rect.block (s := S8x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x1024x1024.size a
  hwx0_3 : ∀ i : grid0.Coords, EltTy.bits .f32 = 32 ∨ (Rect.block (s := S8x1024x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S1024x1024.size a
  hwx0_4 : ∀ i : grid0.Coords, EltTy.bits .f32 = 32 ∨ (Rect.block (s := S1024x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x1024.size a ≤ S8x1024x1024.size a
  hwx0_5 : ∀ i : grid0.Coords, EltTy.bits .f32 = 32 ∨ (Rect.block (s := S8x1024x1024) S1x8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x1024.size a ≤ S8x1024x1024.size a
  hwx0_6 : ∀ i : grid0.Coords, EltTy.bits .f32 = 32 ∨ (Rect.block (s := S8x1024x1024) S1x8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x1024x1024.size a
  hwx0_7 : ∀ i : grid0.Coords, EltTy.bits .f32 = 32 ∨ (Rect.block (s := S8x1024x1024) S1x512x1024.size (cc0_transform_7 i) (hinb0_7 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1x8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1x8x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S_ : Shape := ⟨0, ![]⟩
abbrev S1x1024x1024 : Shape := ⟨3, ![1, 1024, 1024]⟩
abbrev S8x1026x1026 : Shape := ⟨3, ![8, 1026, 1026]⟩

abbrev nBuf : Space → Nat
  | .hbm => 67
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S1024x1024, .f32⟩
  | .hbm, ⟨5, _⟩ => ⟨S_, .f32⟩
  | .hbm, ⟨6, _⟩ => ⟨S8x1024x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S_, .f32⟩
  | .hbm, ⟨11, _⟩ => ⟨S8x1024x1024, .f32⟩
  | .hbm, ⟨12, _⟩ => ⟨S8x1024x1024, .f32⟩
  | .hbm, ⟨13, _⟩ => ⟨S_, .f32⟩
  | .hbm, ⟨14, _⟩ => ⟨S8x1024x1024, .f32⟩
  | .hbm, ⟨15, _⟩ => ⟨S8x1024x1024, .f32⟩
  | .hbm, ⟨16, _⟩ => ⟨S8x1024x1024, .f32⟩
  | .hbm, ⟨17, _⟩ => ⟨S1x1024x1024, .f32⟩
  | .hbm, ⟨18, _⟩ => ⟨S8x1024x1024, .f32⟩
  | .hbm, ⟨19, _⟩ => ⟨S8x1024x1024, .f32⟩
  | .hbm, ⟨20, _⟩ => ⟨S_, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S_, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1024x1024, .f32⟩
  | .hbm, ⟨31, _⟩ => ⟨S8x1024x1024, .f32⟩
  | .hbm, ⟨32, _⟩ => ⟨S_, .f32⟩
  | .hbm, ⟨33, _⟩ => ⟨S8x1024x1024, .f32⟩
  | .hbm, ⟨34, _⟩ => ⟨S8x1024x1024, .f32⟩
  | .hbm, ⟨35, _⟩ => ⟨S_, .f32⟩
  | .hbm, ⟨36, _⟩ => ⟨S8x1024x1024, .f32⟩
  | .hbm, ⟨37, _⟩ => ⟨S8x1024x1024, .f32⟩
  | .hbm, ⟨38, _⟩ => ⟨S_, .f32⟩
  | .hbm, ⟨39, _⟩ => ⟨S8x1024x1024, .f32⟩
  | .hbm, ⟨40, _⟩ => ⟨S8x1024x1024, .f32⟩
  | .hbm, ⟨41, _⟩ => ⟨S_, .f32⟩
  | .hbm, ⟨42, _⟩ => ⟨S8x1024x1024, .f32⟩
  | .hbm, ⟨43, _⟩ => ⟨S8x1024x1024, .f32⟩
  | .hbm, ⟨44, _⟩ => ⟨S8x1024x1024, .f32⟩
  | .hbm, ⟨45, _⟩ => ⟨S8x1024x1024, .f32⟩
  | .hbm, ⟨46, _⟩ => ⟨S8x1024x1024, .f32⟩
  | .hbm, ⟨47, _⟩ => ⟨S_, .i32⟩
  | .hbm, ⟨48, _⟩ => ⟨S_, .f32⟩
  | .hbm, ⟨49, _⟩ => ⟨S8x1026x1026, .f32⟩
  | .hbm, ⟨50, _⟩ => ⟨S8x1024x1024, .f32⟩
  | .hbm, ⟨51, _⟩ => ⟨S8x1024x1024, .f32⟩
  | .hbm, ⟨52, _⟩ => ⟨S8x1024x1024, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S_, .f32⟩
  | .hbm, ⟨58, _⟩ => ⟨S8x1024x1024, .f32⟩
  | .hbm, ⟨59, _⟩ => ⟨S8x1024x1024, .f32⟩
  | .hbm, ⟨60, _⟩ => ⟨S8x1024x1024, .f32⟩
  | .hbm, ⟨61, _⟩ => ⟨S_, .f32⟩
  | .hbm, ⟨62, _⟩ => ⟨S8x1024x1024, .f32⟩
  | .hbm, ⟨63, _⟩ => ⟨S8x1024x1024, .f32⟩
  | .hbm, ⟨64, _⟩ => ⟨S8x1024x1024, .f32⟩
  | .hbm, ⟨65, _⟩ => ⟨S8x1024x1024, .f32⟩
  | .hbm, ⟨66, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  pads_S8x1024x1024_S8x1026x1026_000_110_110 : S8x1024x1024.Pads (![0, 1, 1] : Fin 3 → Nat) ![0, 1, 1] ![0, 0, 0] S8x1026x1026
  h_S_ : 0 < S_.numel
  slices_S8x1026x1026_S8x1024x1024_0_2_1 : S8x1026x1026.Slices ![0, 2, 1] S8x1024x1024
  slices_S8x1026x1026_S8x1024x1024_0_0_1 : S8x1026x1026.Slices ![0, 0, 1] S8x1024x1024
  slices_S8x1026x1026_S8x1024x1024_0_1_2 : S8x1026x1026.Slices ![0, 1, 2] S8x1024x1024
  slices_S8x1026x1026_S8x1024x1024_0_1_0 : S8x1026x1026.Slices ![0, 1, 0] S8x1024x1024

variable [Facts₀]

class Facts : Prop extends Facts₀ where

variable [Facts]
-- ==== Proof.BodyK.lean ====
/-
  What the kernel's body stores, as ONE function of what it loads: the output tile from the four field tiles
  (`v0` the field itself, `v2` the field one step earlier, `v4` the linear wave speed, `v6` the density), the damping
  tile `v8`, and the two halo rows `v9` (the row above the tile) and `v11` (the row below it); `i` is the grid
  point, whose first coordinate says whether the tile is the first or the last of its plane.
-/
import proofs.«429730_j21887153340817_3_alg».proof.Proof.Gen.Kernel.Skeleton

noncomputable section

namespace Cert.Kernel.Hand

open Cert.Kernel Cert.Kernel.Gen
open Idealize.ShloMosaic Idealize.SL.Sem

variable {F : FTy → Type} [FloatOps F]

/-- The stored tile from the loaded values: the body's pure operations composed. -/
def pay (i : grid0.Coords) (v0 v2 v4 v6 : Vec F S1x512x1024 .f32) (v8 : Vec F S512x1024 .f32) (v9 v11 : Vec F S1x1x1024 .f32) :
    Vec F S1x512x1024 .f32 :=
  k0_pay1 (k0_pay3 v2)
    (k0_pay9 (k0_pay2 v0) (k0_pay6 i v11) (iota .tc S512x1024 32 [0] iota_S512x1024_d0_w32) (iota .tc S512x1024 32 [1] iota_S512x1024_d1_w32)
      (k0_pay7 i v0 v9) (k0_pay8 v0) 511#32)
    (k0_pay10 (k0_pay2 v0) (k0_pay5 v6) v8)
    (k0_pay11 (k0_pay2 v0) (k0_pay4 v4) (k0_pay5 v6))
    (k0_pay12 (k0_pay2 v0) (k0_pay5 v6) v8)
    (k0_pay13 (k0_pay2 v0))

end Cert.Kernel.Hand

end
-- ==== Proof.FrameK.lean ====
/-
  The kernel runs to the end, faults nowhere, and leaves in every array what the write-backs of its sixteen grid
  points put there: the frame of a pallas_call whose FIELD array is read through THREE windows at once — the 512-row
  tile itself, the eight rows that end just above the tile, and the eight rows that begin just below it.

  Because one array stands behind three windows, the pipeline cannot hold it whole for each: its full share is
  dealt among them, a half to the tile's window and a quarter to each halo window (`hsplit`); all three only read.
  The body is straight-line: seven loads (five whole tiles, the last row of the block above, the first row of the
  block below), pure arithmetic, one store of the whole output tile; so after the body at a grid point the output's
  staging buffer holds `out7`, one function of the seven input blocks there, and every input buffer its block.
  Everything is generic in the float instance.
-/
import proofs.«429730_j21887153340817_3_alg».proof.Proof.Gen.Kernel.Launch
import proofs.«429730_j21887153340817_3_alg».proof.Proof.BodyK
import proofs.«429730_j21887153340817_3_alg».proof.Proof.Gen.Kernel.Skeleton
import proofs.«429730_j21887153340817_3_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: the region is all of it -/

/-- The arrays as the region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. Windows 0, 5 and 6 read ONE array, the field: the
    tile itself, the eight rows that end just above it, and the eight rows that begin just below it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs, fetched at that point or kept from
    an earlier one with the same block index. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- A whole tile; the whole damping tile; the LAST row of the eight above; the FIRST row of the eight below. -/
abbrev rW : Rect S1x512x1024 := Rect.unit (s := S1x512x1024) ![0, 0, 0] S1x512x1024.size inb_S1x512x1024_S1x512x1024_0_0_0
abbrev rG : Rect S512x1024 := Rect.unit (s := S512x1024) ![0, 0] S512x1024.size inb_S512x1024_S512x1024_0_0
abbrev rA : Rect S1x8x1024 := Rect.unit (s := S1x8x1024) ![0, 7, 0] S1x1x1024.size inb_S1x8x1024_S1x1x1024_0_7_0
abbrev rB : Rect S1x8x1024 := Rect.unit (s := S1x8x1024) ![0, 0, 0] S1x1x1024.size inb_S1x8x1024_S1x1x1024_0_0_0

/-- The output window's staging buffer after the body: one store of the whole tile. -/
def out7 (i : grid0.Coords) (x0 x1 x2 x3 : Vec F S1x512x1024 .f32) (x4 : Vec F S512x1024 .f32) (x5 x6 : Vec F S1x8x1024 .f32) :
    Vec F S1x512x1024 .f32 :=
  View.canon [⟨rW, pay i (View.ld x0 rW) (View.ld x1 rW) (View.ld x2 rW) (View.ld x3 rW) (View.ld x4 rG) (View.ld x5 rA) (View.ld x6 rB)⟩]

theorem cover7 (p0 : Vec F S1x512x1024 .f32) (y : S1x512x1024.Idx) :
    ∃ pc ∈ ([⟨rW, p0⟩] : List (View.Piece (Elt F) S1x512x1024 .f32)), y ∈ pc.1.set :=
  View.cover_of_tiled [⟨rW, p0⟩] S1x512x1024.size (by rfl) y

set_option maxHeartbeats 2000000 in
/-- The body on whole staging buffers, the seven inputs' at known contents and the output's at anything, leaves the
    inputs' as they were and the output's at `out7` of them. -/
theorem sound_kernel (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x512x1024 .f32) (harg9 : arg9.IsWhole)
    (x0 x1 x2 x3 : Vec F S1x512x1024 .f32) (x4 : Vec F S512x1024 .f32) (x5 x6 : Vec F S1x8x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 i x0 x1 x2 x3 x4 x5 x6)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The pipeline's proof data on core `c`. The field's array is read through three windows, so its share is
    dealt among them: a half to the tile's window, a quarter to each halo window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (grid0.coords t) (iblk m c 0 t) (iblk m c 1 t) (iblk m c 2 t) (iblk m c 3 t) (iblk m c 4 t) (iblk m c 5 t) (iblk m c 6 t)
  Φ _ := iprop(emp)
  q w := match w with
    | ⟨0, _⟩ => fullShare.left
    | ⟨1, _⟩ => fullShare
    | ⟨2, _⟩ => fullShare
    | ⟨3, _⟩ => fullShare
    | ⟨4, _⟩ => fullShare
    | ⟨5, _⟩ => fullShare.right.left
    | ⟨6, _⟩ => fullShare.right.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (grid0.coords t) (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## Dealing the field's array among its three windows -/

/-- The pipeline's arrays at entry, each as its whole buffer at the window's share. -/
theorem arrays_entry (c : Dev nD) : (dats m 0 c).arrays ((dats m 0 c).arrAt · 0)
    = bigSep Finset.univ fun w : Fin cfg0.W =>
        ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

theorem hsplit (c : Dev nD) : Pipeline.arrBufs (Ix := Unit) (Name := ℕ) (U := UR sig nD τ) (Lvl := ℕ) spec0 c (V m c)
    ⊢ (dats m 0 c).arrays ((dats m 0 c).arrAt · 0) := by
  unfold Pipeline.arrBufs
  rw [bigSep_eq_bigSepL_of_eq [main_arg0, main_arg1, main_arg2, main_arg3, main_arg4, main_v0] (by decide) (by decide)]
  rw [arrays_entry, bigSep_W0]
  show iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_v0) ↦{fullShare} V m c main_v0)) ⊢ _
  iintro ⟨H0, H1, H2, H3, H4, H5⟩
  ihave H0' := (pointsTo_share (PosShare.mem_left_op_right fullShare)).1 $$ H0
  icases H0' with ⟨Ha, Hb⟩
  ihave Hb' := (pointsTo_share (PosShare.mem_left_op_right fullShare.right)).1 $$ Hb
  icases Hb' with ⟨Hc, Hd⟩
  isplitl [Ha]; · iexact Ha
  isplitl [H1]; · iexact H1
  isplitl [H2]; · iexact H2
  isplitl [H3]; · iexact H3
  isplitl [H4]; · iexact H4
  isplitl [Hc]; · iexact Hc
  isplitl [Hd]; · iexact Hd
  iexact H5

/-! ## The launch -/

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

/-- After the run every array of the pipeline holds what the write-backs leave in it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.Kernel.Hand

end
-- ==== Proof.BodyKI.lean ====
/-
  What the kernel's body stores, as ONE function of what it loads: the output tile from the four field tiles
  (`v0` the field itself, `v2` the field one step earlier, `v4` the linear wave speed, `v6` the density), the damping
  tile `v8`, and the two halo rows `v9` (the row above the tile) and `v11` (the row below it); `i` is the grid
  point, whose first coordinate says whether the tile is the first or the last of its plane.
-/
import proofs.«429730_j21887153340817_3_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The stored tile from the loaded values: the body's pure operations composed. -/
def pay (i : grid0.Coords) (v0 v2 v4 v6 : Vec F S1x512x1024 .f32) (v8 : Vec F S512x1024 .f32) (v9 v11 : Vec F S1x1x1024 .f32) :
    Vec F S1x512x1024 .f32 :=
  k0_pay1 (k0_pay3 v2)
    (k0_pay9 (k0_pay2 v0) (k0_pay6 i v11) (iota .tc S512x1024 32 [0] iota_S512x1024_d0_w32) (iota .tc S512x1024 32 [1] iota_S512x1024_d1_w32)
      (k0_pay7 i v0 v9) (k0_pay8 v0) 511#32)
    (k0_pay10 (k0_pay2 v0) (k0_pay5 v6) v8)
    (k0_pay11 (k0_pay2 v0) (k0_pay4 v4) (k0_pay5 v6))
    (k0_pay12 (k0_pay2 v0) (k0_pay5 v6) v8)
    (k0_pay13 (k0_pay2 v0))

end Cert.KernelIdeal.Hand

end
-- ==== Proof.FrameKI.lean ====
/-
  The kernel runs to the end, faults nowhere, and leaves in every array what the write-backs of its sixteen grid
  points put there: the frame of a pallas_call whose FIELD array is read through THREE windows at once — the 512-row
  tile itself, the eight rows that end just above the tile, and the eight rows that begin just below it.

  Because one array stands behind three windows, the pipeline cannot hold it whole for each: its full share is
  dealt among them, a half to the tile's window and a quarter to each halo window (`hsplit`); all three only read.
  The body is straight-line: seven loads (five whole tiles, the last row of the block above, the first row of the
  block below), pure arithmetic, one store of the whole output tile; so after the body at a grid point the output's
  staging buffer holds `out7`, one function of the seven input blocks there, and every input buffer its block.
  Everything is generic in the float instance.
-/
import proofs.«429730_j21887153340817_3_alg».proof.Proof.Gen.KernelIdeal.Launch
import proofs.«429730_j21887153340817_3_alg».proof.Proof.BodyKI
import proofs.«429730_j21887153340817_3_alg».proof.Proof.Gen.KernelIdeal.Skeleton
import proofs.«429730_j21887153340817_3_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region: the region is all of it -/

/-- The arrays as the region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. Windows 0, 5 and 6 read ONE array, the field: the
    tile itself, the eight rows that end just above it, and the eight rows that begin just below it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs, fetched at that point or kept from
    an earlier one with the same block index. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- A whole tile; the whole damping tile; the LAST row of the eight above; the FIRST row of the eight below. -/
abbrev rW : Rect S1x512x1024 := Rect.unit (s := S1x512x1024) ![0, 0, 0] S1x512x1024.size inb_S1x512x1024_S1x512x1024_0_0_0
abbrev rG : Rect S512x1024 := Rect.unit (s := S512x1024) ![0, 0] S512x1024.size inb_S512x1024_S512x1024_0_0
abbrev rA : Rect S1x8x1024 := Rect.unit (s := S1x8x1024) ![0, 7, 0] S1x1x1024.size inb_S1x8x1024_S1x1x1024_0_7_0
abbrev rB : Rect S1x8x1024 := Rect.unit (s := S1x8x1024) ![0, 0, 0] S1x1x1024.size inb_S1x8x1024_S1x1x1024_0_0_0

/-- The output window's staging buffer after the body: one store of the whole tile. -/
def out7 (i : grid0.Coords) (x0 x1 x2 x3 : Vec F S1x512x1024 .f32) (x4 : Vec F S512x1024 .f32) (x5 x6 : Vec F S1x8x1024 .f32) :
    Vec F S1x512x1024 .f32 :=
  View.canon [⟨rW, pay i (View.ld x0 rW) (View.ld x1 rW) (View.ld x2 rW) (View.ld x3 rW) (View.ld x4 rG) (View.ld x5 rA) (View.ld x6 rB)⟩]

theorem cover7 (p0 : Vec F S1x512x1024 .f32) (y : S1x512x1024.Idx) :
    ∃ pc ∈ ([⟨rW, p0⟩] : List (View.Piece (Elt F) S1x512x1024 .f32)), y ∈ pc.1.set :=
  View.cover_of_tiled [⟨rW, p0⟩] S1x512x1024.size (by rfl) y

set_option maxHeartbeats 2000000 in
/-- The body on whole staging buffers, the seven inputs' at known contents and the output's at anything, leaves the
    inputs' as they were and the output's at `out7` of them. -/
theorem sound_kernel (c : Dev nD) (E : Set ℕ) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x512x1024 .f32) (harg9 : arg9.IsWhole)
    (x0 x1 x2 x3 : Vec F S1x512x1024 .f32) (x4 : Vec F S512x1024 .f32) (x5 x6 : Vec F S1x8x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 i x0 x1 x2 x3 x4 x5 x6)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- The pipeline's proof data on core `c`. The field's array is read through three windows, so its share is
    dealt among them: a half to the tile's window, a quarter to each halo window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (grid0.coords t) (iblk m c 0 t) (iblk m c 1 t) (iblk m c 2 t) (iblk m c 3 t) (iblk m c 4 t) (iblk m c 5 t) (iblk m c 6 t)
  Φ _ := iprop(emp)
  q w := match w with
    | ⟨0, _⟩ => fullShare.left
    | ⟨1, _⟩ => fullShare
    | ⟨2, _⟩ => fullShare
    | ⟨3, _⟩ => fullShare
    | ⟨4, _⟩ => fullShare
    | ⟨5, _⟩ => fullShare.right.left
    | ⟨6, _⟩ => fullShare.right.right
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (grid0.coords t) (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## Dealing the field's array among its three windows -/

/-- The pipeline's arrays at entry, each as its whole buffer at the window's share. -/
theorem arrays_entry (c : Dev nD) : (dats m 0 c).arrays ((dats m 0 c).arrAt · 0)
    = bigSep Finset.univ fun w : Fin cfg0.W =>
        ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

theorem hsplit (c : Dev nD) : Pipeline.arrBufs (Ix := Unit) (Name := ℕ) (U := UR sig nD τ) (Lvl := ℕ) spec0 c (V m c)
    ⊢ (dats m 0 c).arrays ((dats m 0 c).arrAt · 0) := by
  unfold Pipeline.arrBufs
  rw [bigSep_eq_bigSepL_of_eq [main_arg0, main_arg1, main_arg2, main_arg3, main_arg4, main_v0] (by decide) (by decide)]
  rw [arrays_entry, bigSep_W0]
  show iprop((((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_v0) ↦{fullShare} V m c main_v0)) ⊢ _
  iintro ⟨H0, H1, H2, H3, H4, H5⟩
  ihave H0' := (pointsTo_share (PosShare.mem_left_op_right fullShare)).1 $$ H0
  icases H0' with ⟨Ha, Hb⟩
  ihave Hb' := (pointsTo_share (PosShare.mem_left_op_right fullShare.right)).1 $$ Hb
  icases Hb' with ⟨Hc, Hd⟩
  isplitl [Ha]; · iexact Ha
  isplitl [H1]; · iexact H1
  isplitl [H2]; · iexact H2
  isplitl [H3]; · iexact H3
  isplitl [H4]; · iexact H4
  isplitl [Hc]; · iexact Hc
  isplitl [Hd]; · iexact Hd
  iexact H5

/-! ## The launch -/

abbrev EP : Emb (UR sig nD τ) (MT nD τ sig Unit (Elt F) ℕ (UR sig nD τ) ℕ) := emb₁

def u₀ : UR sig nD τ := initOf (Pipeline.cells cfgs cellOf_inj) (Pipeline.launchToks cfgs cellOf_inj)

/-- After the run every array of the pipeline holds what the write-backs leave in it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.KernelIdeal.Hand

end
-- ==== Proof.Spec.lean ====
/-
  The mathematics both programs compute, stated once over the extended reals and over no program.

  A field `u` on 8 independent planes of 1024 x 1024 cells takes one explicit time step of a damped,
  weakly nonlinear wave equation: with `v` the field one step earlier, `lap u` the five-point Laplacian
  of `u` with the plane continued by ZERO past its four edges, `b = b_geom + rho / (1 + |u|^2)` the
  saturable damping and `c = c_lin + (rho * c_nl) * u^2` the wave speed,

      next = (8 u - (4 - 2 b) v + c^2 lap u) / (4 + 2 b).

  `cell` is that update at one cell from the cell's four neighbours and its own data, with every
  operation in the order and grouping the kernel uses; `G` lays it over the whole array, a neighbour
  past an edge read as zero. Float literals stay the words the programs print (never evaluated).
-/
import Idealize.ShloMosaic.PureOps.Ideal
import Idealize.ShloMosaic.Lib.ValueIdx

noncomputable section

namespace Cert.Stencil

open Idealize.ShloMosaic Idealize.ShloMosaic.ValueIdx

/-- The field arrays: 8 planes of 1024 rows of 1024 cells. -/
abbrev Field : Shape := ⟨3, ![8, 1024, 1024]⟩
/-- The geometric damping, one plane shared by the 8. -/
abbrev Plane : Shape := ⟨2, ![1024, 1024]⟩

abbrev k1 : EReal := Ideal.ofBits .f32 0x3F800000#32
abbrev k2 : EReal := Ideal.ofBits .f32 0x40000000#32
abbrev k4 : EReal := Ideal.ofBits .f32 0x40800000#32
abbrev k8 : EReal := Ideal.ofBits .f32 0x41000000#32
/-- The nonlinearity's coefficient, the single-precision word nearest 0.01 (the same word in both programs). -/
abbrev knl : EReal := Ideal.ofBits .f32 0x3C23D70A#32

/-- One cell's update from its neighbours to the north, south, west and east (`n s w e`), its own value `x`,
    its value one step earlier `y`, and its linear wave speed, density and geometric damping. -/
def cell (n s w e x y cl rho bg : EReal) : EReal :=
  let lap := ((((n + s) + w) + e) - k4 * x) * k1
  let a := max (Ideal.div x k1) (-(Ideal.div x k1))
  let b := bg + rho * Ideal.div k1 (k1 + a * a)
  let c := cl + (rho * knl) * (x * x)
  Ideal.div k1 (k4 + b * k2) * ((k8 * x - (k4 - b * k2) * y) + (c * c) * lap)

/-- The neighbour one row up, zero above the first row. -/
def north (u : Field.Idx → EReal) (b : Fin 8) (r q : Fin 1024) : EReal :=
  if _h : r.val = 0 then 0 else u (ix3 b ⟨r.val - 1, lt_of_le_of_lt (Nat.sub_le _ _) r.isLt⟩ q)
/-- The neighbour one row down, zero below the last row. -/
def south (u : Field.Idx → EReal) (b : Fin 8) (r q : Fin 1024) : EReal :=
  if h : r.val = 1023 then 0 else u (ix3 b ⟨r.val + 1, by have := r.isLt; omega⟩ q)
/-- The neighbour one column to the left, zero before the first column. -/
def west (u : Field.Idx → EReal) (b : Fin 8) (r q : Fin 1024) : EReal :=
  if _h : q.val = 0 then 0 else u (ix3 b r ⟨q.val - 1, lt_of_le_of_lt (Nat.sub_le _ _) q.isLt⟩)
/-- The neighbour one column to the right, zero after the last column. -/
def east (u : Field.Idx → EReal) (b : Fin 8) (r q : Fin 1024) : EReal :=
  if h : q.val = 1023 then 0 else u (ix3 b r ⟨q.val + 1, by have := q.isLt; omega⟩)

/-- The step at plane `b`, row `r`, column `q`. -/
def stepAt (u v cl rho : Field.Idx → EReal) (bg : Plane.Idx → EReal) (b : Fin 8) (r q : Fin 1024) : EReal :=
  cell (north u b r q) (south u b r q) (west u b r q) (east u b r q)
    (u (ix3 b r q)) (v (ix3 b r q)) (cl (ix3 b r q)) (rho (ix3 b r q)) (bg (ix2 r q))

/-- The whole next field. -/
def G (u v cl rho : Field.Idx → EReal) (bg : Plane.Idx → EReal) : Field.Idx → EReal :=
  fun j => stepAt u v cl rho bg (j 0) (j 1) (j 2)

theorem G_ix3 (u v cl rho : Field.Idx → EReal) (bg : Plane.Idx → EReal) (b : Fin 8) (r q : Fin 1024) :
    G u v cl rho bg (ix3 b r q) = stepAt u v cl rho bg b r q := rfl

end Cert.Stencil

end
-- ==== Proof.PayloadKI.lean ====
/-
  The stored tile, read at one cell: it is the step `Stencil.cell` of the cell's four neighbours INSIDE THE TILE'S
  DATA — the row above the tile's first row comes from the halo row `v9` (zero for the first tile of a plane), the
  row below its last row from the halo row `v11` (zero for the last tile), the columns left of the first and right
  of the last are zero — and of the cell's own values in the five tiles.
-/
import proofs.«429730_j21887153340817_3_alg».proof.Proof.BodyKI
import proofs.«429730_j21887153340817_3_alg».proof.Proof.Spec
import Idealize.ShloMosaic.Lib.KernelVsHost
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.SL.Sem
open Idealize.ShloMosaic.ValueIdx

/-- The neighbour one row up within the tile's data: row `r - 1` of the tile, or for the tile's first row the halo
    row `v9`, read as zero when the tile is the first of its plane (grid coordinate 0 is 0). -/
def tileN (i : grid0.Coords) (v0 : FVec Ideal S1x512x1024 .f32) (v9 : FVec Ideal S1x1x1024 .f32) (r : Fin 512) (q : Fin 1024) : EReal :=
  if _h : r.val = 0 then (if 0 < (i 0).val then v9 (ix3 (0 : Fin 1) (0 : Fin 1) q) else 0)
  else v0 (ix3 (0 : Fin 1) ⟨r.val - 1, lt_of_le_of_lt (Nat.sub_le _ _) r.isLt⟩ q)

/-- The neighbour one row down: row `r + 1`, or for the tile's last row the halo row `v11`, zero when the tile is the
    last of its plane (grid coordinate 0 is not below 1). -/
def tileS (i : grid0.Coords) (v0 : FVec Ideal S1x512x1024 .f32) (v11 : FVec Ideal S1x1x1024 .f32) (r : Fin 512) (q : Fin 1024) : EReal :=
  if h : r.val = 511 then (if (i 0).val < 1 then v11 (ix3 (0 : Fin 1) (0 : Fin 1) q) else 0)
  else v0 (ix3 (0 : Fin 1) ⟨r.val + 1, by have := r.isLt; omega⟩ q)

/-- The neighbour one column left, zero before the first column. -/
def tileW (v0 : FVec Ideal S1x512x1024 .f32) (r : Fin 512) (q : Fin 1024) : EReal :=
  if _h : q.val = 0 then 0 else v0 (ix3 (0 : Fin 1) r ⟨q.val - 1, lt_of_le_of_lt (Nat.sub_le _ _) q.isLt⟩)

/-- The neighbour one column right, zero after the last column. -/
def tileE (v0 : FVec Ideal S1x512x1024 .f32) (r : Fin 512) (q : Fin 1024) : EReal :=
  if h : q.val = 1023 then 0 else v0 (ix3 (0 : Fin 1) r ⟨q.val + 1, by have := q.isLt; omega⟩)

/-! ### Words: the two scalar comparisons on the grid coordinate, and a select on "coordinate equals a constant" -/

/-- On a coordinate below 2, the signed test "greater than 0" is the test on the natural number. -/
theorem sgt_zero_word (n : Nat) (hn : n < 2) :
    Scalar.cmpi .sgt (BitVec.ofNat 32 n) 0#32 = if 0 < n then 1#1 else 0#1 := by
  interval_cases n <;> rfl

/-- On a coordinate below 2, the signed test "less than 1" is the test on the natural number. -/
theorem slt_one_word (n : Nat) (hn : n < 2) :
    Scalar.cmpi .slt (BitVec.ofNat 32 n) 1#32 = if n < 1 then 1#1 else 0#1 := by
  interval_cases n <;> rfl

/-- A select whose condition compares two small words for equality is the `if` on the numbers. -/
theorem select_eq_word {α : Type} (n k : Nat) (hn : n < 2 ^ 32) (hk : k < 2 ^ 32) (A B : α) :
    Scalar.select (IntOp.cmpi .eq (BitVec.ofNat 32 n) (BitVec.ofNat 32 k)) A B = if n = k then A else B := by
  by_cases h : n = k
  · subst h
    rw [if_pos rfl]
    have : IntOp.cmpi .eq (BitVec.ofNat 32 n) (BitVec.ofNat 32 n) = 1#1 := by
      simp [IntOp.cmpi]
    rw [this]; exact select_one A B
  · rw [if_neg h]
    have hne : BitVec.ofNat 32 n ≠ BitVec.ofNat 32 k := by
      intro e
      have := congrArg BitVec.toNat e
      rw [BitVec.toNat_ofNat, BitVec.toNat_ofNat, Nat.mod_eq_of_lt hn, Nat.mod_eq_of_lt hk] at this
      exact h this
    have : IntOp.cmpi .eq (BitVec.ofNat 32 n) (BitVec.ofNat 32 k) = 0#1 := by
      show BitVec.ofBool (BitVec.ofNat 32 n == BitVec.ofNat 32 k) = 0#1
      rw [beq_eq_false_iff_ne.mpr hne]; rfl
    rw [this]; exact select_zero A B

/-! ### The layout operations of the tile, read at a row and a column -/

/-- A tile viewed without its leading unit axis reads the tile itself. -/
theorem dropUnit_apply (v : FVec Ideal S1x512x1024 .f32) (r : Fin 512) (q : Fin 1024) :
    shapeCast S512x1024 v shapeCasts_S1x512x1024_S512x1024 (ix2 r q) = v (ix3 (0 : Fin 1) r q) :=
  shapeCast_1ab_ab_apply v _ r q

/-- A halo row, kept or replaced by the zero row by a one-bit condition, then laid under every row of the tile:
    at any row, column `q` reads the halo row's column `q` if the condition holds and zero otherwise. -/
theorem haloRow_apply (c : BitVec 1) (v : FVec Ideal S1x1x1024 .f32) (r : Fin 512) (q : Fin 1024) :
    broadcastTo S512x1024
        (shapeCast S1x1024
          (Scalar.select c (shapeCast S1x1024 v shapeCasts_S1x1x1024_S1x1024)
            (broadcast S1x1024 (Scalar.ofBits (F := Ideal) .f32 0x00000000#32)))
          shapeCasts_S1x1024_S1x1024)
        broadcasts_S1x1024_S512x1024 (ix2 r q)
      = if c = 1#1 then v (ix3 (0 : Fin 1) (0 : Fin 1) q) else 0 := by
  rw [broadcastTo_1b_ab_apply, shapeCast_self]
  by_cases hc : c = 1#1
  · subst hc
    rw [select_one, if_pos rfl]
    exact shapeCast_1ab_ab_apply v _ (0 : Fin 1) q
  · obtain rfl := eq_zero_of_ne_one hc
    rw [select_zero, if_neg hc]
    exact Ideal.ofBits_zero_f32

/-- The row coordinate of a cell, as the word the kernel compares. -/
theorem iotaRow_apply (r : Fin 512) (q : Fin 1024) :
    iota .tc S512x1024 32 [0] iota_S512x1024_d0_w32 (ix2 r q) = BitVec.ofNat 32 r.val :=
  iota_single_apply .tc S512x1024 32 0 _ _

/-- The column coordinate of a cell, as the word the kernel compares. -/
theorem iotaCol_apply (r : Fin 512) (q : Fin 1024) :
    iota .tc S512x1024 32 [1] iota_S512x1024_d1_w32 (ix2 r q) = BitVec.ofNat 32 q.val :=
  iota_single_apply .tc S512x1024 32 1 _ _

/-! ### The four rotations of the tile, read away from the edge they wrap around -/

section Rotations
variable {α : Type}

/-- Rotated down one row: below the first row, row `r` reads row `r - 1`. -/
theorem rotRow1_apply (x : S512x1024.Idx → α) (r : Fin 512) (q : Fin 1024) (hr : r.val ≠ 0) :
    dynamicRotate 0 1#32 none x rotates_S512x1024_d0 (ix2 r q)
      = x (ix2 (⟨r.val - 1, lt_of_le_of_lt (Nat.sub_le _ _) r.isLt⟩ : Fin 512) q) := by
  refine dynamicRotate_apply (0 : Fin 2) 1#32 x rotates_S512x1024_d0 (ix2 r q)
    (ix2 (⟨r.val - 1, lt_of_le_of_lt (Nat.sub_le _ _) r.isLt⟩ : Fin 512) q) fun b => ?_
  match b with
  | ⟨0, _⟩ =>
    have := r.isLt
    show r.val - 1 = if (0 : Fin 2) = 0 then (r.val + 512 - 1 % 512) % 512 else r.val
    rw [if_pos rfl]; omega
  | ⟨1, _⟩ => rfl

/-- Rotated down 511 rows, that is up one: above the last row, row `r` reads row `r + 1`. -/
theorem rotRow511_apply (x : S512x1024.Idx → α) (r : Fin 512) (q : Fin 1024) (hr : r.val ≠ 511) :
    dynamicRotate 0 511#32 none x rotates_S512x1024_d0 (ix2 r q)
      = x (ix2 (⟨r.val + 1, by have := r.isLt; omega⟩ : Fin 512) q) := by
  refine dynamicRotate_apply (0 : Fin 2) 511#32 x rotates_S512x1024_d0 (ix2 r q)
    (ix2 (⟨r.val + 1, by have := r.isLt; omega⟩ : Fin 512) q) fun b => ?_
  match b with
  | ⟨0, _⟩ =>
    have := r.isLt
    show r.val + 1 = if (0 : Fin 2) = 0 then (r.val + 512 - 511 % 512) % 512 else r.val
    rw [if_pos rfl]; omega
  | ⟨1, _⟩ => rfl

/-- Rotated right one column: right of the first column, column `q` reads column `q - 1`. -/
theorem rotCol1_apply (x : S512x1024.Idx → α) (r : Fin 512) (q : Fin 1024) (hq : q.val ≠ 0) :
    dynamicRotate 1 1#32 none x rotates_S512x1024_d1 (ix2 r q)
      = x (ix2 r (⟨q.val - 1, lt_of_le_of_lt (Nat.sub_le _ _) q.isLt⟩ : Fin 1024)) := by
  refine dynamicRotate_apply (1 : Fin 2) 1#32 x rotates_S512x1024_d1 (ix2 r q)
    (ix2 r (⟨q.val - 1, lt_of_le_of_lt (Nat.sub_le _ _) q.isLt⟩ : Fin 1024)) fun b => ?_
  match b with
  | ⟨0, _⟩ => rfl
  | ⟨1, _⟩ =>
    have := q.isLt
    show q.val - 1 = if (1 : Fin 2) = 1 then (q.val + 1024 - 1 % 1024) % 1024 else q.val
    rw [if_pos rfl]; omega

/-- Rotated right 1023 columns, that is left one: left of the last column, column `q` reads column `q + 1`. -/
theorem rotCol1023_apply (x : S512x1024.Idx → α) (r : Fin 512) (q : Fin 1024) (hq : q.val ≠ 1023) :
    dynamicRotate 1 1023#32 none x rotates_S512x1024_d1 (ix2 r q)
      = x (ix2 r (⟨q.val + 1, by have := q.isLt; omega⟩ : Fin 1024)) := by
  refine dynamicRotate_apply (1 : Fin 2) 1023#32 x rotates_S512x1024_d1 (ix2 r q)
    (ix2 r (⟨q.val + 1, by have := q.isLt; omega⟩ : Fin 1024)) fun b => ?_
  match b with
  | ⟨0, _⟩ => rfl
  | ⟨1, _⟩ =>
    have := q.isLt
    show q.val + 1 = if (1 : Fin 2) = 1 then (q.val + 1024 - 1023 % 1024) % 1024 else q.val
    rw [if_pos rfl]; omega

end Rotations

/-! ### The payloads read at a row and a column -/

/-- The field tile without its leading unit axis. -/
theorem pay2_apply (v0 : FVec Ideal S1x512x1024 .f32) (r : Fin 512) (q : Fin 1024) :
    k0_pay2 (F := Ideal) v0 (ix2 r q) = v0 (ix3 (0 : Fin 1) r q) := dropUnit_apply v0 r q

/-- The earlier field's tile without its leading unit axis. -/
theorem pay3_apply (v2 : FVec Ideal S1x512x1024 .f32) (r : Fin 512) (q : Fin 1024) :
    k0_pay3 (F := Ideal) v2 (ix2 r q) = v2 (ix3 (0 : Fin 1) r q) := dropUnit_apply v2 r q

/-- The wave speed's tile without its leading unit axis. -/
theorem pay4_apply (v4 : FVec Ideal S1x512x1024 .f32) (r : Fin 512) (q : Fin 1024) :
    k0_pay4 (F := Ideal) v4 (ix2 r q) = v4 (ix3 (0 : Fin 1) r q) := dropUnit_apply v4 r q

/-- The density's tile without its leading unit axis. -/
theorem pay5_apply (v6 : FVec Ideal S1x512x1024 .f32) (r : Fin 512) (q : Fin 1024) :
    k0_pay5 (F := Ideal) v6 (ix2 r q) = v6 (ix3 (0 : Fin 1) r q) := dropUnit_apply v6 r q

/-- The halo row below the tile, zero for the last tile of a plane, under every row. -/
theorem pay6_apply (i : grid0.Coords) (v11 : FVec Ideal S1x1x1024 .f32) (r : Fin 512) (q : Fin 1024) :
    k0_pay6 (F := Ideal) i v11 (ix2 r q) = if (i 0).val < 1 then v11 (ix3 (0 : Fin 1) (0 : Fin 1) q) else 0 := by
  have hi : (i 0).val < 2 := (i 0).isLt
  refine (haloRow_apply (Scalar.cmpi .slt (BitVec.ofNat 32 (i 0).val) 1#32) v11 r q).trans ?_
  rw [slt_one_word _ hi]
  by_cases h : (i 0).val < 1
  · rw [if_pos h, if_pos h, if_pos rfl]
  · rw [if_neg h, if_neg h, if_neg (by decide)]

/-- The northern neighbour as the kernel builds it: the tile rotated down one row, its first row replaced by the halo
    row above, itself zero for the first tile of a plane. -/
theorem pay7_apply (i : grid0.Coords) (v0 : FVec Ideal S1x512x1024 .f32) (v9 : FVec Ideal S1x1x1024 .f32)
    (r : Fin 512) (q : Fin 1024) : k0_pay7 (F := Ideal) i v0 v9 (ix2 r q) = tileN i v0 v9 r q := by
  have hi : (i 0).val < 2 := (i 0).isLt
  show Scalar.select (IntOp.cmpi .eq (iota .tc S512x1024 32 [0] iota_S512x1024_d0_w32 (ix2 r q)) 0#32)
      (broadcastTo S512x1024 (shapeCast S1x1024 (Scalar.select (Scalar.cmpi .sgt (BitVec.ofNat 32 (i 0).val) 0#32)
          (shapeCast S1x1024 v9 shapeCasts_S1x1x1024_S1x1024) (broadcast S1x1024 (Scalar.ofBits (F := Ideal) .f32 0x00000000#32)))
          shapeCasts_S1x1024_S1x1024) broadcasts_S1x1024_S512x1024 (ix2 r q))
      (dynamicRotate 0 1#32 none (k0_pay2 (F := Ideal) v0) rotates_S512x1024_d0 (ix2 r q))
    = tileN i v0 v9 r q
  rw [iotaRow_apply, haloRow_apply, sgt_zero_word _ hi,
    select_eq_word r.val 0 (lt_trans r.isLt (by norm_num)) (by norm_num)]
  unfold tileN
  by_cases hr : r.val = 0
  · rw [if_pos hr, dif_pos hr]
    by_cases h0 : 0 < (i 0).val
    · rw [if_pos h0, if_pos h0, if_pos rfl]
    · rw [if_neg h0, if_neg h0, if_neg (by decide)]
  · rw [if_neg hr, dif_neg hr, rotRow1_apply _ r q hr]
    exact pay2_apply v0 _ q

/-- The southern neighbour as the kernel builds it: the tile rotated up one row, its last row replaced by the halo row
    below. -/
theorem south_apply (i : grid0.Coords) (v0 : FVec Ideal S1x512x1024 .f32) (v11 : FVec Ideal S1x1x1024 .f32)
    (r : Fin 512) (q : Fin 1024) :
    Scalar.select (IntOp.cmpi .eq (iota .tc S512x1024 32 [0] iota_S512x1024_d0_w32 (ix2 r q)) 511#32)
        (k0_pay6 (F := Ideal) i v11 (ix2 r q)) (k0_pay8 (F := Ideal) v0 (ix2 r q))
      = tileS i v0 v11 r q := by
  rw [iotaRow_apply, pay6_apply, select_eq_word r.val 511 (lt_trans r.isLt (by norm_num)) (by norm_num)]
  unfold tileS
  by_cases hr : r.val = 511
  · rw [if_pos hr, dif_pos hr]
  · rw [if_neg hr, dif_neg hr]
    refine (rotRow511_apply (k0_pay2 (F := Ideal) v0) r q hr).trans ?_
    exact pay2_apply v0 _ q

/-- The western neighbour as the kernel builds it: the tile rotated right one column, its first column zero. -/
theorem west_apply (v0 : FVec Ideal S1x512x1024 .f32) (r : Fin 512) (q : Fin 1024) :
    Scalar.select (IntOp.cmpi .eq (iota .tc S512x1024 32 [1] iota_S512x1024_d1_w32 (ix2 r q)) 0#32)
        (Scalar.ofBits (F := Ideal) .f32 0x00000000#32)
        (dynamicRotate 1 1#32 none (k0_pay2 (F := Ideal) v0) rotates_S512x1024_d1 (ix2 r q))
      = tileW v0 r q := by
  rw [iotaCol_apply, select_eq_word q.val 0 (lt_trans q.isLt (by norm_num)) (by norm_num)]
  unfold tileW
  by_cases hq : q.val = 0
  · rw [if_pos hq, dif_pos hq]; exact Ideal.ofBits_zero_f32
  · rw [if_neg hq, dif_neg hq, rotCol1_apply _ r q hq]
    exact pay2_apply v0 r _

/-- The eastern neighbour as the kernel builds it: the tile rotated left one column, its last column zero. -/
theorem east_apply (v0 : FVec Ideal S1x512x1024 .f32) (r : Fin 512) (q : Fin 1024) :
    Scalar.select (IntOp.cmpi .eq (iota .tc S512x1024 32 [1] iota_S512x1024_d1_w32 (ix2 r q)) 1023#32)
        (Scalar.ofBits (F := Ideal) .f32 0x00000000#32)
        (dynamicRotate 1 1023#32 none (k0_pay2 (F := Ideal) v0) rotates_S512x1024_d1 (ix2 r q))
      = tileE v0 r q := by
  rw [iotaCol_apply, select_eq_word q.val 1023 (lt_trans q.isLt (by norm_num)) (by norm_num)]
  unfold tileE
  by_cases hq : q.val = 1023
  · rw [if_pos hq, dif_pos hq]; exact Ideal.ofBits_zero_f32
  · rw [if_neg hq, dif_neg hq, rotCol1023_apply _ r q hq]
    exact pay2_apply v0 r _

/-- The five-point Laplacian of the tile's data at a cell, in the kernel's order of operations. -/
theorem pay9_apply (i : grid0.Coords) (v0 : FVec Ideal S1x512x1024 .f32) (v9 v11 : FVec Ideal S1x1x1024 .f32)
    (r : Fin 512) (q : Fin 1024) :
    k0_pay9 (k0_pay2 (F := Ideal) v0) (k0_pay6 (F := Ideal) i v11) (iota .tc S512x1024 32 [0] iota_S512x1024_d0_w32)
        (iota .tc S512x1024 32 [1] iota_S512x1024_d1_w32) (k0_pay7 (F := Ideal) i v0 v9) (k0_pay8 (F := Ideal) v0) 511#32 (ix2 r q)
      = ((((tileN i v0 v9 r q + tileS i v0 v11 r q) + tileW v0 r q) + tileE v0 r q)
          - Cert.Stencil.k4 * v0 (ix3 (0 : Fin 1) r q)) * Cert.Stencil.k1 := by
  show ((((k0_pay7 (F := Ideal) i v0 v9 (ix2 r q)
          + Scalar.select (IntOp.cmpi .eq (iota .tc S512x1024 32 [0] iota_S512x1024_d0_w32 (ix2 r q)) 511#32)
              (k0_pay6 (F := Ideal) i v11 (ix2 r q)) (k0_pay8 (F := Ideal) v0 (ix2 r q)))
        + Scalar.select (IntOp.cmpi .eq (iota .tc S512x1024 32 [1] iota_S512x1024_d1_w32 (ix2 r q)) 0#32)
            (Scalar.ofBits (F := Ideal) .f32 0x00000000#32)
            (dynamicRotate 1 1#32 none (k0_pay2 (F := Ideal) v0) rotates_S512x1024_d1 (ix2 r q)))
      + Scalar.select (IntOp.cmpi .eq (iota .tc S512x1024 32 [1] iota_S512x1024_d1_w32 (ix2 r q)) 1023#32)
          (Scalar.ofBits (F := Ideal) .f32 0x00000000#32)
          (dynamicRotate 1 1023#32 none (k0_pay2 (F := Ideal) v0) rotates_S512x1024_d1 (ix2 r q)))
      - Cert.Stencil.k4 * k0_pay2 (F := Ideal) v0 (ix2 r q)) * Cert.Stencil.k1 = _
  rw [pay7_apply, south_apply, west_apply, east_apply, pay2_apply]

/-- The saturable damping at a cell. -/
theorem pay10_apply (v0 v6 : FVec Ideal S1x512x1024 .f32) (v8 : FVec Ideal S512x1024 .f32) (r : Fin 512) (q : Fin 1024) :
    k0_pay10 (k0_pay2 (F := Ideal) v0) (k0_pay5 (F := Ideal) v6) v8 (ix2 r q)
      = v8 (ix2 r q) + v6 (ix3 (0 : Fin 1) r q)
          * Ideal.div Cert.Stencil.k1 (Cert.Stencil.k1
              + max (Ideal.div (v0 (ix3 (0 : Fin 1) r q)) Cert.Stencil.k1) (-(Ideal.div (v0 (ix3 (0 : Fin 1) r q)) Cert.Stencil.k1))
                * max (Ideal.div (v0 (ix3 (0 : Fin 1) r q)) Cert.Stencil.k1) (-(Ideal.div (v0 (ix3 (0 : Fin 1) r q)) Cert.Stencil.k1))) := by
  show v8 (ix2 r q) + k0_pay5 (F := Ideal) v6 (ix2 r q)
          * Ideal.div Cert.Stencil.k1 (Cert.Stencil.k1
              + max (Ideal.div (k0_pay2 (F := Ideal) v0 (ix2 r q)) Cert.Stencil.k1) (-(Ideal.div (k0_pay2 (F := Ideal) v0 (ix2 r q)) Cert.Stencil.k1))
                * max (Ideal.div (k0_pay2 (F := Ideal) v0 (ix2 r q)) Cert.Stencil.k1) (-(Ideal.div (k0_pay2 (F := Ideal) v0 (ix2 r q)) Cert.Stencil.k1))) = _
  rw [pay2_apply, pay5_apply]

/-- The wave speed at a cell. -/
theorem pay11_apply (v0 v4 v6 : FVec Ideal S1x512x1024 .f32) (r : Fin 512) (q : Fin 1024) :
    k0_pay11 (k0_pay2 (F := Ideal) v0) (k0_pay4 (F := Ideal) v4) (k0_pay5 (F := Ideal) v6) (ix2 r q)
      = v4 (ix3 (0 : Fin 1) r q)
          + (v6 (ix3 (0 : Fin 1) r q) * Cert.Stencil.knl) * (v0 (ix3 (0 : Fin 1) r q) * v0 (ix3 (0 : Fin 1) r q)) := by
  show k0_pay4 (F := Ideal) v4 (ix2 r q)
          + (k0_pay5 (F := Ideal) v6 (ix2 r q) * Cert.Stencil.knl) * (k0_pay2 (F := Ideal) v0 (ix2 r q) * k0_pay2 (F := Ideal) v0 (ix2 r q)) = _
  rw [pay2_apply, pay4_apply, pay5_apply]

/-- The reciprocal of the update's denominator at a cell, from the damping. -/
theorem pay12_apply (v0 v6 : FVec Ideal S1x512x1024 .f32) (v8 : FVec Ideal S512x1024 .f32) (r : Fin 512) (q : Fin 1024) :
    k0_pay12 (k0_pay2 (F := Ideal) v0) (k0_pay5 (F := Ideal) v6) v8 (ix2 r q)
      = Ideal.div Cert.Stencil.k1
          (Cert.Stencil.k4 + k0_pay10 (k0_pay2 (F := Ideal) v0) (k0_pay5 (F := Ideal) v6) v8 (ix2 r q) * Cert.Stencil.k2) := rfl

/-- Eight times the field at a cell. -/
theorem pay13_apply (v0 : FVec Ideal S1x512x1024 .f32) (r : Fin 512) (q : Fin 1024) :
    k0_pay13 (k0_pay2 (F := Ideal) v0) (ix2 r q) = Cert.Stencil.k8 * v0 (ix3 (0 : Fin 1) r q) := by
  show Cert.Stencil.k8 * k0_pay2 (F := Ideal) v0 (ix2 r q) = _
  rw [pay2_apply]

/-- The last payload: the update assembled from the five tiles it reads, stored with the leading unit axis back. -/
theorem pay1_apply (v3 v50 v60 v65 v71 v73 : FVec Ideal S512x1024 .f32) (r : Fin 512) (q : Fin 1024) :
    k0_pay1 v3 v50 v60 v65 v71 v73 (ix3 (0 : Fin 1) r q)
      = v71 (ix2 r q) * ((v73 (ix2 r q) - (Cert.Stencil.k4 - v60 (ix2 r q) * Cert.Stencil.k2) * v3 (ix2 r q))
          + (v65 (ix2 r q) * v65 (ix2 r q)) * v50 (ix2 r q)) := by
  unfold k0_pay1
  exact shapeCast_ab_1ab_apply _ _ (0 : Fin 1) r q

/-- The stored tile at row `r`, column `q`. -/
theorem pay_apply (i : grid0.Coords) (v0 v2 v4 v6 : FVec Ideal S1x512x1024 .f32) (v8 : FVec Ideal S512x1024 .f32)
    (v9 v11 : FVec Ideal S1x1x1024 .f32) (r : Fin 512) (q : Fin 1024) :
    pay (F := Ideal) i v0 v2 v4 v6 v8 v9 v11 (ix3 (0 : Fin 1) r q)
      = Cert.Stencil.cell (tileN i v0 v9 r q) (tileS i v0 v11 r q) (tileW v0 r q) (tileE v0 r q)
          (v0 (ix3 (0 : Fin 1) r q)) (v2 (ix3 (0 : Fin 1) r q)) (v4 (ix3 (0 : Fin 1) r q)) (v6 (ix3 (0 : Fin 1) r q)) (v8 (ix2 r q)) := by
  unfold pay
  rw [pay1_apply, pay3_apply, pay9_apply, pay12_apply, pay10_apply, pay11_apply, pay13_apply]
  rfl

end Cert.KernelIdeal.Hand

end
-- ==== Proof.BlocksKI.lean ====
/-
  From tiles to the array. Grid point `t` = (tile `i` of 2, plane `b` of 8) writes rows 512 i … 512 i + 511 of plane
  `b`; what it writes there is the step `Stencil.G` of the five argument arrays, read through that tile: the tile's
  own rows come from the field's window, the row above the tile (row 512 i - 1, for i = 1) from the last row of the
  eight-row block that ends there, the row below it (row 512 (i + 1), for i = 0) from the first row of the eight-row
  block that begins there, and the first tile has nothing above, the last nothing below. The sixteen tiles cover
  the array, so after the run the result array is `G` of the arguments.
-/
import proofs.«429730_j21887153340817_3_alg».proof.Proof.FrameKI
import proofs.«429730_j21887153340817_3_alg».proof.Proof.PayloadKI
import proofs.«429730_j21887153340817_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

/-! ## The kernel's index maps, decided over the sixteen grid points

  With `k` the point's first coordinate (the row tile) and `p` its second (the plane): the five tile windows sit at
  block (p, k, 0), the damping's at (k, 0), the halo above at (p, max (64 k - 1) 0, 0) = (p, 63 k, 0) and the halo
  below at (p, min (64 (k + 1)) 127, 0) = (p, 64 + 63 k, 0), `k` being 0 or 1. -/

theorem idx_tile : ∀ t : Fin cfg0.N,
    win0_0.index t (0 : Fin 3) = (grid0.coords t (1 : Fin 2)).val
    ∧ win0_0.index t (1 : Fin 3) = (grid0.coords t (0 : Fin 2)).val
    ∧ win0_0.index t (2 : Fin 3) = 0
    ∧ win0_1.index t (0 : Fin 3) = (grid0.coords t (1 : Fin 2)).val
    ∧ win0_1.index t (1 : Fin 3) = (grid0.coords t (0 : Fin 2)).val
    ∧ win0_1.index t (2 : Fin 3) = 0
    ∧ win0_2.index t (0 : Fin 3) = (grid0.coords t (1 : Fin 2)).val
    ∧ win0_2.index t (1 : Fin 3) = (grid0.coords t (0 : Fin 2)).val
    ∧ win0_2.index t (2 : Fin 3) = 0
    ∧ win0_3.index t (0 : Fin 3) = (grid0.coords t (1 : Fin 2)).val
    ∧ win0_3.index t (1 : Fin 3) = (grid0.coords t (0 : Fin 2)).val
    ∧ win0_3.index t (2 : Fin 3) = 0
    ∧ win0_7.index t (0 : Fin 3) = (grid0.coords t (1 : Fin 2)).val
    ∧ win0_7.index t (1 : Fin 3) = (grid0.coords t (0 : Fin 2)).val
    ∧ win0_7.index t (2 : Fin 3) = 0 :=
  (by decide +kernel : ∀ t : Fin grid0.N, _)

theorem idx_rest : ∀ t : Fin cfg0.N,
    win0_4.index t (0 : Fin 2) = (grid0.coords t (0 : Fin 2)).val
    ∧ win0_4.index t (1 : Fin 2) = 0
    ∧ win0_5.index t (0 : Fin 3) = (grid0.coords t (1 : Fin 2)).val
    ∧ win0_5.index t (1 : Fin 3) = 63 * (grid0.coords t (0 : Fin 2)).val
    ∧ win0_5.index t (2 : Fin 3) = 0
    ∧ win0_6.index t (0 : Fin 3) = (grid0.coords t (1 : Fin 2)).val
    ∧ win0_6.index t (1 : Fin 3) = 64 + 63 * (grid0.coords t (0 : Fin 2)).val
    ∧ win0_6.index t (2 : Fin 3) = 0 :=
  (by decide +kernel : ∀ t : Fin grid0.N, _)

/-- Every (tile, plane) pair is some grid point's output block. -/
theorem idx_onto : ∀ (p : Fin 2) (b : Fin 8), ∃ t : Fin cfg0.N, win0_7.index t = ![b.val, p.val, 0] :=
  (by decide +kernel : ∀ (p : Fin 2) (b : Fin 8), ∃ t : Fin grid0.N, win0_7.index t = ![b.val, p.val, 0])

theorem hz2 : (![0, 0] : Fin 2 → Nat) = fun _ => 0 := funext fun a => by fin_cases a <;> rfl
theorem hz3 : (![0, 0, 0] : Fin 3 → Nat) = fun _ => 0 := funext fun a => by fin_cases a <;> rfl

/-- Cell updates with equal arguments are equal. -/
theorem cell_congr {n s w e x y cl rho bg n' s' w' e' x' y' cl' rho' bg' : EReal}
    (h1 : n = n') (h2 : s = s') (h3 : w = w') (h4 : e = e') (h5 : x = x') (h6 : y = y') (h7 : cl = cl')
    (h8 : rho = rho') (h9 : bg = bg') :
    Cert.Stencil.cell n s w e x y cl rho bg = Cert.Stencil.cell n' s' w' e' x' y' cl' rho' bg' := by
  subst h1 h2 h3 h4 h5 h6 h7 h8 h9; rfl

/-! ## A tile's neighbours are the array's

  A tile holds rows `512 k … 512 k + 511` of plane `b` of the field `u` (`h0`), `k` the grid point's first
  coordinate, 0 or 1. Then the four neighbours the body builds from the tile and its two halo rows are the
  neighbours of the same cell in the array, zero past the plane's edges. -/

section Tile

variable (u : Cert.Stencil.Field.Idx → EReal) (i : grid0.Coords) (k : Nat) (b : Fin 8)
  (v0 : FVec Ideal S1x512x1024 .f32) (v9 v11 : FVec Ideal S1x1x1024 .f32)
  (hk : (i 0).val = k) (hk2 : k < 2)
  (h0 : ∀ (r : Fin 512) (q : Fin 1024) (hR : 512 * k + r.val < 1024),
    v0 (ix3 (0 : Fin 1) r q) = u (ix3 b (⟨512 * k + r.val, hR⟩ : Fin 1024) q))

include hk hk2 h0

/-- The northern neighbour: inside the tile the tile's own row above; on the tile's first row the halo row above for
    the second tile of a plane, and zero for the first, whose first row is the plane's. -/
theorem tileN_eq (h9 : 0 < k → ∀ (q : Fin 1024) (hR : 512 * k - 1 < 1024),
      v9 (ix3 (0 : Fin 1) (0 : Fin 1) q) = u (ix3 b (⟨512 * k - 1, hR⟩ : Fin 1024) q))
    (r : Fin 512) (q : Fin 1024) (hR : 512 * k + r.val < 1024) :
    tileN i v0 v9 r q = Cert.Stencil.north u b (⟨512 * k + r.val, hR⟩ : Fin 1024) q := by
  have hr := r.isLt
  unfold tileN Cert.Stencil.north
  by_cases hr0 : r.val = 0
  · rw [dif_pos hr0]
    by_cases hi0 : 0 < (i 0).val
    · rw [if_pos hi0, dif_neg (show ¬(512 * k + r.val = 0) by omega), h9 (by omega) q (by omega)]
      exact congrArg u (congrArg (fun x : Fin 1024 => ix3 b x q) (Fin.ext (by show 512 * k - 1 = 512 * k + r.val - 1; omega)))
    · rw [if_neg hi0, dif_pos (show 512 * k + r.val = 0 by omega)]
  · rw [dif_neg hr0, dif_neg (show ¬(512 * k + r.val = 0) by omega), h0 _ q (by show 512 * k + (r.val - 1) < 1024; omega)]
    exact congrArg u (congrArg (fun x : Fin 1024 => ix3 b x q) (Fin.ext (by show 512 * k + (r.val - 1) = 512 * k + r.val - 1; omega)))

/-- The southern neighbour: inside the tile the tile's own row below; on the tile's last row the halo row below for
    the first tile of a plane, and zero for the second, whose last row is the plane's. -/
theorem tileS_eq (h11 : k < 1 → ∀ (q : Fin 1024) (hR : 512 * k + 512 < 1024),
      v11 (ix3 (0 : Fin 1) (0 : Fin 1) q) = u (ix3 b (⟨512 * k + 512, hR⟩ : Fin 1024) q))
    (r : Fin 512) (q : Fin 1024) (hR : 512 * k + r.val < 1024) :
    tileS i v0 v11 r q = Cert.Stencil.south u b (⟨512 * k + r.val, hR⟩ : Fin 1024) q := by
  have hr := r.isLt
  unfold tileS Cert.Stencil.south
  by_cases hr0 : r.val = 511
  · rw [dif_pos hr0]
    by_cases hi0 : (i 0).val < 1
    · rw [if_pos hi0, dif_neg (show ¬(512 * k + r.val = 1023) by omega), h11 (by omega) q (by omega)]
      exact congrArg u (congrArg (fun x : Fin 1024 => ix3 b x q) (Fin.ext (by show 512 * k + 512 = 512 * k + r.val + 1; omega)))
    · rw [if_neg hi0, dif_pos (show 512 * k + r.val = 1023 by omega)]
  · rw [dif_neg hr0, dif_neg (show ¬(512 * k + r.val = 1023) by omega), h0 _ q (by show 512 * k + (r.val + 1) < 1024; omega)]
    exact congrArg u (congrArg (fun x : Fin 1024 => ix3 b x q) (Fin.ext (by show 512 * k + (r.val + 1) = 512 * k + r.val + 1; omega)))

/-- The western neighbour: a tile is as wide as the plane, so its first column is the plane's. -/
theorem tileW_eq (r : Fin 512) (q : Fin 1024) (hR : 512 * k + r.val < 1024) :
    tileW v0 r q = Cert.Stencil.west u b (⟨512 * k + r.val, hR⟩ : Fin 1024) q := by
  unfold tileW Cert.Stencil.west
  by_cases hq0 : q.val = 0
  · rw [dif_pos hq0, dif_pos hq0]
  · rw [dif_neg hq0, dif_neg hq0, h0 r _ hR]

/-- The eastern neighbour: the tile's last column is the plane's. -/
theorem tileE_eq (r : Fin 512) (q : Fin 1024) (hR : 512 * k + r.val < 1024) :
    tileE v0 r q = Cert.Stencil.east u b (⟨512 * k + r.val, hR⟩ : Fin 1024) q := by
  unfold tileE Cert.Stencil.east
  by_cases hq0 : q.val = 1023
  · rw [dif_pos hq0, dif_pos hq0]
  · rw [dif_neg hq0, dif_neg hq0, h0 r _ hR]

end Tile

variable (m : (ℓ : Loc nD τ sig) → Buf (Elt Ideal) ℓ)

/-! ## The windows' blocks, read at a cell

  A block's cell sits in its array, on each axis, at the block index times the block's size plus the cell's own
  coordinate. -/

/-- Row `r`, column `q` of the field's tile at grid point `t` is row `512 k + r` of plane `p` of the array. -/
theorem iblk0_apply (c : Dev nD) (t : Fin cfg0.N) (r : Fin 512) (q : Fin 1024)
    (hb : (grid0.coords t (1 : Fin 2)).val < 8) (hR : 512 * (grid0.coords t (0 : Fin 2)).val + r.val < 1024) :
    iblk m c 0 t (ix3 (0 : Fin 1) r q)
      = V m c main_arg0 (ix3 (⟨(grid0.coords t (1 : Fin 2)).val, hb⟩ : Fin 8)
          (⟨512 * (grid0.coords t (0 : Fin 2)).val + r.val, hR⟩ : Fin 1024) q) := by
  obtain ⟨e0, e1, e2, -⟩ := idx_tile t
  show V m c main_arg0 (((cfg0.win 0).blk t).view.emb (ix3 (0 : Fin 1) r q)) = _
  refine congrArg (V m c main_arg0) (funext fun a => Fin.ext ?_)
  match a with
  | ⟨0, _⟩ => show win0_0.index t (0 : Fin 3) * 1 + 1 * (0 : Fin 1).val = (grid0.coords t (1 : Fin 2)).val; rw [e0]; show _ * 1 + 1 * 0 = _; omega
  | ⟨1, _⟩ => show win0_0.index t (1 : Fin 3) * 512 + 1 * r.val = 512 * (grid0.coords t (0 : Fin 2)).val + r.val; omega
  | ⟨2, _⟩ => show win0_0.index t (2 : Fin 3) * 1024 + 1 * q.val = q.val; omega

/-- Row `r`, column `q` of the earlier field's tile at grid point `t` is row `512 k + r` of plane `p` of the array. -/
theorem iblk1_apply (c : Dev nD) (t : Fin cfg0.N) (r : Fin 512) (q : Fin 1024)
    (hb : (grid0.coords t (1 : Fin 2)).val < 8) (hR : 512 * (grid0.coords t (0 : Fin 2)).val + r.val < 1024) :
    iblk m c 1 t (ix3 (0 : Fin 1) r q)
      = V m c main_arg1 (ix3 (⟨(grid0.coords t (1 : Fin 2)).val, hb⟩ : Fin 8)
          (⟨512 * (grid0.coords t (0 : Fin 2)).val + r.val, hR⟩ : Fin 1024) q) := by
  obtain ⟨-, -, -, e0, e1, e2, -⟩ := idx_tile t
  show V m c main_arg1 (((cfg0.win 1).blk t).view.emb (ix3 (0 : Fin 1) r q)) = _
  refine congrArg (V m c main_arg1) (funext fun a => Fin.ext ?_)
  match a with
  | ⟨0, _⟩ => show win0_1.index t (0 : Fin 3) * 1 + 1 * (0 : Fin 1).val = (grid0.coords t (1 : Fin 2)).val; rw [e0]; show _ * 1 + 1 * 0 = _; omega
  | ⟨1, _⟩ => show win0_1.index t (1 : Fin 3) * 512 + 1 * r.val = 512 * (grid0.coords t (0 : Fin 2)).val + r.val; omega
  | ⟨2, _⟩ => show win0_1.index t (2 : Fin 3) * 1024 + 1 * q.val = q.val; omega

/-- Row `r`, column `q` of the wave speed's tile at grid point `t` is row `512 k + r` of plane `p` of the array. -/
theorem iblk2_apply (c : Dev nD) (t : Fin cfg0.N) (r : Fin 512) (q : Fin 1024)
    (hb : (grid0.coords t (1 : Fin 2)).val < 8) (hR : 512 * (grid0.coords t (0 : Fin 2)).val + r.val < 1024) :
    iblk m c 2 t (ix3 (0 : Fin 1) r q)
      = V m c main_arg2 (ix3 (⟨(grid0.coords t (1 : Fin 2)).val, hb⟩ : Fin 8)
          (⟨512 * (grid0.coords t (0 : Fin 2)).val + r.val, hR⟩ : Fin 1024) q) := by
  obtain ⟨-, -, -, -, -, -, e0, e1, e2, -⟩ := idx_tile t
  show V m c main_arg2 (((cfg0.win 2).blk t).view.emb (ix3 (0 : Fin 1) r q)) = _
  refine congrArg (V m c main_arg2) (funext fun a => Fin.ext ?_)
  match a with
  | ⟨0, _⟩ => show win0_2.index t (0 : Fin 3) * 1 + 1 * (0 : Fin 1).val = (grid0.coords t (1 : Fin 2)).val; rw [e0]; show _ * 1 + 1 * 0 = _; omega
  | ⟨1, _⟩ => show win0_2.index t (1 : Fin 3) * 512 + 1 * r.val = 512 * (grid0.coords t (0 : Fin 2)).val + r.val; omega
  | ⟨2, _⟩ => show win0_2.index t (2 : Fin 3) * 1024 + 1 * q.val = q.val; omega

/-- Row `r`, column `q` of the density's tile at grid point `t` is row `512 k + r` of plane `p` of the array. -/
theorem iblk3_apply (c : Dev nD) (t : Fin cfg0.N) (r : Fin 512) (q : Fin 1024)
    (hb : (grid0.coords t (1 : Fin 2)).val < 8) (hR : 512 * (grid0.coords t (0 : Fin 2)).val + r.val < 1024) :
    iblk m c 3 t (ix3 (0 : Fin 1) r q)
      = V m c main_arg3 (ix3 (⟨(grid0.coords t (1 : Fin 2)).val, hb⟩ : Fin 8)
          (⟨512 * (grid0.coords t (0 : Fin 2)).val + r.val, hR⟩ : Fin 1024) q) := by
  obtain ⟨-, -, -, -, -, -, -, -, -, e0, e1, e2, -⟩ := idx_tile t
  show V m c main_arg3 (((cfg0.win 3).blk t).view.emb (ix3 (0 : Fin 1) r q)) = _
  refine congrArg (V m c main_arg3) (funext fun a => Fin.ext ?_)
  match a with
  | ⟨0, _⟩ => show win0_3.index t (0 : Fin 3) * 1 + 1 * (0 : Fin 1).val = (grid0.coords t (1 : Fin 2)).val; rw [e0]; show _ * 1 + 1 * 0 = _; omega
  | ⟨1, _⟩ => show win0_3.index t (1 : Fin 3) * 512 + 1 * r.val = 512 * (grid0.coords t (0 : Fin 2)).val + r.val; omega
  | ⟨2, _⟩ => show win0_3.index t (2 : Fin 3) * 1024 + 1 * q.val = q.val; omega

/-- Row `r`, column `q` of the damping's tile at grid point `t` is row `512 k + r` of the damping plane. -/
theorem iblk4_apply (c : Dev nD) (t : Fin cfg0.N) (r : Fin 512) (q : Fin 1024)
    (hR : 512 * (grid0.coords t (0 : Fin 2)).val + r.val < 1024) :
    iblk m c 4 t (ix2 r q)
      = V m c main_arg4 (ix2 (⟨512 * (grid0.coords t (0 : Fin 2)).val + r.val, hR⟩ : Fin 1024) q) := by
  obtain ⟨e0, e1, -⟩ := idx_rest t
  show V m c main_arg4 (((cfg0.win 4).blk t).view.emb (ix2 r q)) = _
  refine congrArg (V m c main_arg4) (funext fun a => Fin.ext ?_)
  match a with
  | ⟨0, _⟩ => show win0_4.index t (0 : Fin 2) * 512 + 1 * r.val = 512 * (grid0.coords t (0 : Fin 2)).val + r.val; omega
  | ⟨1, _⟩ => show win0_4.index t (1 : Fin 2) * 1024 + 1 * q.val = q.val; omega

/-- The last of the eight rows above the tile, for the second tile of a plane, is the array's row `512 k - 1`. -/
theorem halo5_apply (c : Dev nD) (t : Fin cfg0.N) (q : Fin 1024) (hk : 0 < (grid0.coords t (0 : Fin 2)).val)
    (hb : (grid0.coords t (1 : Fin 2)).val < 8) (hR : 512 * (grid0.coords t (0 : Fin 2)).val - 1 < 1024) :
    View.ld (iblk m c 5 t) rA (ix3 (0 : Fin 1) (0 : Fin 1) q)
      = V m c main_arg0 (ix3 (⟨(grid0.coords t (1 : Fin 2)).val, hb⟩ : Fin 8)
          (⟨512 * (grid0.coords t (0 : Fin 2)).val - 1, hR⟩ : Fin 1024) q) := by
  obtain ⟨-, -, e0, e1, e2, -⟩ := idx_rest t
  have hk2 : (grid0.coords t (0 : Fin 2)).val < 2 := (grid0.coords t (0 : Fin 2)).isLt
  show V m c main_arg0 (((cfg0.win 5).blk t).view.emb (rA.emb (ix3 (0 : Fin 1) (0 : Fin 1) q))) = _
  refine congrArg (V m c main_arg0) (funext fun a => Fin.ext ?_)
  match a with
  | ⟨0, _⟩ => show win0_5.index t (0 : Fin 3) * 1 + 1 * (0 + 1 * (0 : Fin 1).val) = (grid0.coords t (1 : Fin 2)).val; rw [e0]; show _ * 1 + 1 * (0 + 1 * 0) = _; omega
  | ⟨1, _⟩ => show win0_5.index t (1 : Fin 3) * 8 + 1 * (7 + 1 * (0 : Fin 1).val) = 512 * (grid0.coords t (0 : Fin 2)).val - 1; rw [e1]; show _ * 8 + 1 * (7 + 1 * 0) = _; omega
  | ⟨2, _⟩ => show win0_5.index t (2 : Fin 3) * 1024 + 1 * (0 + 1 * q.val) = q.val; omega

/-- The first of the eight rows below the tile, for the first tile of a plane, is the array's row `512 k + 512`. -/
theorem halo6_apply (c : Dev nD) (t : Fin cfg0.N) (q : Fin 1024) (hk : (grid0.coords t (0 : Fin 2)).val < 1)
    (hb : (grid0.coords t (1 : Fin 2)).val < 8) (hR : 512 * (grid0.coords t (0 : Fin 2)).val + 512 < 1024) :
    View.ld (iblk m c 6 t) rB (ix3 (0 : Fin 1) (0 : Fin 1) q)
      = V m c main_arg0 (ix3 (⟨(grid0.coords t (1 : Fin 2)).val, hb⟩ : Fin 8)
          (⟨512 * (grid0.coords t (0 : Fin 2)).val + 512, hR⟩ : Fin 1024) q) := by
  obtain ⟨-, -, -, -, -, e0, e1, e2⟩ := idx_rest t
  show V m c main_arg0 (((cfg0.win 6).blk t).view.emb (rB.emb (ix3 (0 : Fin 1) (0 : Fin 1) q))) = _
  refine congrArg (V m c main_arg0) (funext fun a => Fin.ext ?_)
  match a with
  | ⟨0, _⟩ => show win0_6.index t (0 : Fin 3) * 1 + 1 * (0 + 1 * (0 : Fin 1).val) = (grid0.coords t (1 : Fin 2)).val; rw [e0]; show _ * 1 + 1 * (0 + 1 * 0) = _; omega
  | ⟨1, _⟩ => show win0_6.index t (1 : Fin 3) * 8 + 1 * (0 + 1 * (0 : Fin 1).val) = 512 * (grid0.coords t (0 : Fin 2)).val + 512; rw [e1]; show _ * 8 + 1 * (0 + 1 * 0) = _; omega
  | ⟨2, _⟩ => show win0_6.index t (2 : Fin 3) * 1024 + 1 * (0 + 1 * q.val) = q.val; omega

/-- The step of the five argument arrays as the region finds them. -/
abbrev GV (c : Dev nD) : S8x1024x1024.Idx → EReal :=
  Cert.Stencil.G (V m c main_arg0) (V m c main_arg1) (V m c main_arg2) (V m c main_arg3) (V m c main_arg4)

/-- The output tile's cell (0, r, q) at grid point `t` is the array's cell (p, 512 k + r, q). -/
theorem emb7 (t : Fin cfg0.N) (r : Fin 512) (q : Fin 1024)
    (hb : (grid0.coords t (1 : Fin 2)).val < 8) (hR : 512 * (grid0.coords t (0 : Fin 2)).val + r.val < 1024) :
    ((cfg0.win 7).blk t).view.emb (ix3 (0 : Fin 1) r q)
      = ix3 (⟨(grid0.coords t (1 : Fin 2)).val, hb⟩ : Fin 8)
          (⟨512 * (grid0.coords t (0 : Fin 2)).val + r.val, hR⟩ : Fin 1024) q := by
  obtain ⟨-, -, -, -, -, -, -, -, -, -, -, -, e0, e1, e2⟩ := idx_tile t
  refine funext fun a => Fin.ext ?_
  match a with
  | ⟨0, _⟩ => show win0_7.index t (0 : Fin 3) * 1 + 1 * (0 : Fin 1).val = (grid0.coords t (1 : Fin 2)).val; rw [e0]; show _ * 1 + 1 * 0 = _; omega
  | ⟨1, _⟩ => show win0_7.index t (1 : Fin 3) * 512 + 1 * r.val = 512 * (grid0.coords t (0 : Fin 2)).val + r.val; omega
  | ⟨2, _⟩ => show win0_7.index t (2 : Fin 3) * 1024 + 1 * q.val = q.val; omega

/-- What the body stores at cell (0, r, q) of its tile is the step of the arrays at the cell the tile's cell is. -/
theorem stored_cell (c : Dev nD) (t : Fin cfg0.N) (r : Fin 512) (q : Fin 1024) :
    pay (F := Ideal) (grid0.coords t) (iblk m c 0 t) (iblk m c 1 t) (iblk m c 2 t) (iblk m c 3 t) (iblk m c 4 t)
        (View.ld (iblk m c 5 t) rA) (View.ld (iblk m c 6 t) rB) (ix3 (0 : Fin 1) r q)
      = GV m c (((cfg0.win 7).blk t).view.emb (ix3 (0 : Fin 1) r q)) := by
  have hk2 : (grid0.coords t (0 : Fin 2)).val < 2 := (grid0.coords t (0 : Fin 2)).isLt
  have hb : (grid0.coords t (1 : Fin 2)).val < 8 := (grid0.coords t (1 : Fin 2)).isLt
  have hr := r.isLt
  have hR : 512 * (grid0.coords t (0 : Fin 2)).val + r.val < 1024 := by omega
  rw [emb7 t r q hb hR]
  show _ = Cert.Stencil.stepAt (V m c main_arg0) (V m c main_arg1) (V m c main_arg2) (V m c main_arg3) (V m c main_arg4)
    (⟨(grid0.coords t (1 : Fin 2)).val, hb⟩ : Fin 8) (⟨512 * (grid0.coords t (0 : Fin 2)).val + r.val, hR⟩ : Fin 1024) q
  unfold Cert.Stencil.stepAt
  refine (pay_apply (grid0.coords t) (iblk m c 0 t) (iblk m c 1 t) (iblk m c 2 t) (iblk m c 3 t) (iblk m c 4 t)
    (View.ld (iblk m c 5 t) rA) (View.ld (iblk m c 6 t) rB) r q).trans ?_
  have h0 : ∀ (r' : Fin 512) (q' : Fin 1024) (hR' : 512 * (grid0.coords t (0 : Fin 2)).val + r'.val < 1024),
      iblk m c 0 t (ix3 (0 : Fin 1) r' q')
        = V m c main_arg0 (ix3 (⟨(grid0.coords t (1 : Fin 2)).val, hb⟩ : Fin 8)
            (⟨512 * (grid0.coords t (0 : Fin 2)).val + r'.val, hR'⟩ : Fin 1024) q') :=
    fun r' q' hR' => iblk0_apply m c t r' q' hb hR'
  refine cell_congr ?_ ?_ ?_ ?_ ?_ ?_ ?_ ?_ ?_
  · exact tileN_eq (V m c main_arg0) (grid0.coords t) _ _ (iblk m c 0 t) (View.ld (iblk m c 5 t) rA) rfl hk2 h0
      (fun hk q' hR' => halo5_apply m c t q' hk hb hR') r q hR
  · exact tileS_eq (V m c main_arg0) (grid0.coords t) _ _ (iblk m c 0 t) (View.ld (iblk m c 6 t) rB) rfl hk2 h0
      (fun hk q' hR' => halo6_apply m c t q' hk hb hR') r q hR
  · exact tileW_eq (V m c main_arg0) (grid0.coords t) _ _ (iblk m c 0 t) rfl hk2 h0 r q hR
  · exact tileE_eq (V m c main_arg0) (grid0.coords t) _ _ (iblk m c 0 t) rfl hk2 h0 r q hR
  · exact iblk0_apply m c t r q hb hR
  · exact iblk1_apply m c t r q hb hR
  · exact iblk2_apply m c t r q hb hR
  · exact iblk3_apply m c t r q hb hR
  · exact iblk4_apply m c t r q hR

/-- What grid point `t` writes back is its tile of the step. -/
theorem flushed7_eq (c : Dev nD) (t : Fin cfg0.N) :
    (dats (F := Ideal) m 0 c).flushed 7 t = ((cfg0.win 7).blk t).view.read (Elt Ideal) (GV m c) := by
  show (cfg0.win 7).cut (grid0.coords t) ((dats m 0 c).after 7 t) = _
  rw [after7]
  unfold out7
  rw [View.canon_unit_zero hz3]
  simp only [View.ld_unit_zero (S := S1x512x1024) hz3, View.ld_unit_zero (S := S512x1024) hz2]
  funext j
  obtain ⟨r, q, rfl⟩ : ∃ (r : Fin 512) (q : Fin 1024), j = ix3 (0 : Fin 1) r q :=
    ⟨j 1, j 2, (eq_ix3 j).trans (congrArg (fun z : Fin 1 => ix3 z (j 1) (j 2)) (Subsingleton.elim _ _))⟩
  exact stored_cell m c t r q

/-- An index of the array is in point `t`'s tile iff each coordinate is in the tile's range on its axis. -/
theorem mem_blk7 (t : Fin cfg0.N) (i : S8x1024x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v0).slice (win0_7.rect t)).set ↔ _
  rw [View.set_slice_whole, Rect.mem_set_unit]
  exact Iff.rfl

/-- Every cell of the result array lies in some grid point's tile. -/
theorem tiles_cover (i : S8x1024x1024.Idx) :
    ∃ t : Fin cfg0.N, (cfg0.win 7).flush t = true ∧ i ∈ ((cfg0.win 7).blk t).view.set := by
  have hi0 : (i 0).val < 8 := (i 0).isLt
  have hi1 : (i 1).val < 1024 := (i 1).isLt
  have hi2 : (i 2).val < 1024 := (i 2).isLt
  obtain ⟨t, ht⟩ := idx_onto ⟨(i 1).val / 512, by omega⟩ ⟨(i 0).val, hi0⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- After the run the result array is the step of the arguments. -/
theorem final7 (c : Dev nD) : (dats (F := Ideal) m 0 c).arrAt 7 cfg0.N = GV m c :=
  (dats (F := Ideal) m 0 c).arrAt_eq_of_cover 7 (GV m c) (fun t _ => flushed7_eq m c t) (tiles_cover)

end Cert.KernelIdeal.Hand

end
-- ==== Proof.RefSide.lean ====
/-
  The reference program, run: its result array is the step `Stencil.G` of its five argument arrays.
-/
import proofs.«429730_j21887153340817_3_alg».proof.Proof.Gen.ReferenceIdeal.Run
import proofs.«429730_j21887153340817_3_alg».proof.Proof.Gen.ReferenceIdeal.Read
import proofs.«429730_j21887153340817_3_alg».proof.Proof.Spec
import Idealize.ShloMosaic.Lib.KernelVsHost
import Idealize.ShloMosaic.Lib.ValueIdx
import Idealize.ShloMosaic.Lib.Pipeline.Value

noncomputable section

namespace Cert.RefSide

open Idealize.ShloMosaic Idealize.ShloMosaic.TcCoe Idealize.SL.Sem
open Idealize.ShloMosaic.ValueIdx

open Cert.ReferenceIdeal.Read in
/-- The geometric damping, broadcast over the planes, read at a cell. -/
theorem v10_eq (x4 : FVec Ideal Cert.ReferenceIdeal.S1024x1024 .f32) (b : Fin 8) (r q : Fin 1024) :
    val_main_v10 (F := Ideal) x4 (ix3 b r q) = x4 (ix2 r q) := by
  rw [val_main_v10_apply, val_main_v9_apply]
  exact congrArg x4 (funext fun a => Fin.ext (by match a with | ⟨0, _⟩ => rfl | ⟨1, _⟩ => rfl))

open Cert.ReferenceIdeal.Read in
/-- The padding value, the integer zero converted, is the real zero. -/
theorem padv_eq : (val_main_call0_v0 (F := Ideal)) (Shape.Idx.first Cert.ReferenceIdeal.Facts₀.h_S_) = 0 := by
  rw [val_main_call0_v0_apply, val_main_c_apply]
  exact sitofp_zero (φ := .f32)

open Cert.ReferenceIdeal.Read in
/-- The slice of the padded field two rows down and one column in is the southern neighbour. -/
theorem v33_eq (x0 : FVec Ideal Cert.ReferenceIdeal.S8x1024x1024 .f32) (b : Fin 8) (r q : Fin 1024) :
    val_main_v33 (F := Ideal) x0 (ix3 b r q) = Cert.Stencil.south x0 b r q := by
  rw [val_main_v33_apply]
  unfold Cert.Stencil.south val_main_v32
  have hr := r.isLt
  have hq := q.isLt
  by_cases h : r.val = 1023
  · rw [dif_pos h]
    refine (pad_apply_of_not_inside _ _ _ x0 _ _ _ _ (1 : Fin 3) ?_).trans padv_eq
    intro hin
    have h3 : (2 + r.val - 1) / (0 + 1) < 1024 := hin.2.2
    omega
  · rw [dif_neg h]
    refine pad_apply_of_inside _ _ _ x0 _ _ _ _ _ ?_
    intro a
    match a with
    | ⟨0, _⟩ => show b.val = 0 + b.val * (0 + 1); omega
    | ⟨1, _⟩ => show 2 + r.val = 1 + (r.val + 1) * (0 + 1); omega
    | ⟨2, _⟩ => show 1 + q.val = 1 + q.val * (0 + 1); omega

open Cert.ReferenceIdeal.Read in
/-- The slice of the padded field at the same row and one column in is the northern neighbour. -/
theorem v34_eq (x0 : FVec Ideal Cert.ReferenceIdeal.S8x1024x1024 .f32) (b : Fin 8) (r q : Fin 1024) :
    val_main_v34 (F := Ideal) x0 (ix3 b r q) = Cert.Stencil.north x0 b r q := by
  rw [val_main_v34_apply]
  unfold Cert.Stencil.north val_main_v32
  have hr := r.isLt
  have hq := q.isLt
  by_cases h : r.val = 0
  · rw [dif_pos h]
    refine (pad_apply_of_not_inside _ _ _ x0 _ _ _ _ (1 : Fin 3) ?_).trans padv_eq
    intro hin
    have h1 : 1 ≤ r.val := hin.1
    omega
  · rw [dif_neg h]
    refine pad_apply_of_inside _ _ _ x0 _ _ _ _ _ ?_
    intro a
    match a with
    | ⟨0, _⟩ => show b.val = 0 + b.val * (0 + 1); omega
    | ⟨1, _⟩ => show r.val = 1 + (r.val - 1) * (0 + 1); omega
    | ⟨2, _⟩ => show 1 + q.val = 1 + q.val * (0 + 1); omega

open Cert.ReferenceIdeal.Read in
/-- The slice of the padded field one row down and two columns in is the eastern neighbour. -/
theorem v36_eq (x0 : FVec Ideal Cert.ReferenceIdeal.S8x1024x1024 .f32) (b : Fin 8) (r q : Fin 1024) :
    val_main_v36 (F := Ideal) x0 (ix3 b r q) = Cert.Stencil.east x0 b r q := by
  rw [val_main_v36_apply]
  unfold Cert.Stencil.east val_main_v32
  have hr := r.isLt
  have hq := q.isLt
  by_cases h : q.val = 1023
  · rw [dif_pos h]
    refine (pad_apply_of_not_inside _ _ _ x0 _ _ _ _ (2 : Fin 3) ?_).trans padv_eq
    intro hin
    have h3 : (2 + q.val - 1) / (0 + 1) < 1024 := hin.2.2
    omega
  · rw [dif_neg h]
    refine pad_apply_of_inside _ _ _ x0 _ _ _ _ _ ?_
    intro a
    match a with
    | ⟨0, _⟩ => show b.val = 0 + b.val * (0 + 1); omega
    | ⟨1, _⟩ => show 1 + r.val = 1 + r.val * (0 + 1); omega
    | ⟨2, _⟩ => show 2 + q.val = 1 + (q.val + 1) * (0 + 1); omega

open Cert.ReferenceIdeal.Read in
/-- The slice of the padded field one row down at the same column is the western neighbour. -/
theorem v38_eq (x0 : FVec Ideal Cert.ReferenceIdeal.S8x1024x1024 .f32) (b : Fin 8) (r q : Fin 1024) :
    val_main_v38 (F := Ideal) x0 (ix3 b r q) = Cert.Stencil.west x0 b r q := by
  rw [val_main_v38_apply]
  unfold Cert.Stencil.west val_main_v32
  have hr := r.isLt
  have hq := q.isLt
  by_cases h : q.val = 0
  · rw [dif_pos h]
    refine (pad_apply_of_not_inside _ _ _ x0 _ _ _ _ (2 : Fin 3) ?_).trans padv_eq
    intro hin
    have h1 : 1 ≤ q.val := hin.1
    omega
  · rw [dif_neg h]
    refine pad_apply_of_inside _ _ _ x0 _ _ _ _ _ ?_
    intro a
    match a with
    | ⟨0, _⟩ => show b.val = 0 + b.val * (0 + 1); omega
    | ⟨1, _⟩ => show 1 + r.val = 1 + r.val * (0 + 1); omega
    | ⟨2, _⟩ => show q.val = 1 + (q.val - 1) * (0 + 1); omega

open Cert.ReferenceIdeal.Read in
/-- The reference's result, as a function of its arguments, is the step. -/
theorem ref_eq (x0 x1 x2 x3 : FVec Ideal Cert.ReferenceIdeal.S8x1024x1024 .f32) (x4 : FVec Ideal Cert.ReferenceIdeal.S1024x1024 .f32) :
    val_main_v47 (F := Ideal) x0 x1 x2 x3 x4 = Cert.Stencil.G x0 x1 x2 x3 x4 := by
  funext j
  obtain ⟨b, r, q, rfl⟩ : ∃ (b : Fin 8) (r q : Fin 1024), j = ix3 b r q := ⟨j 0, j 1, j 2, eq_ix3 j⟩
  rw [Cert.Stencil.G_ix3]
  unfold Cert.Stencil.stepAt Cert.Stencil.cell
  simp only [val_main_v47_apply, val_main_v46_apply, val_main_v45_apply, val_main_v44_apply, val_main_v43_apply,
    val_main_cst_10_apply, val_main_v42_apply, val_main_v41_apply, val_main_v40_apply, val_main_cst_9_apply,
    val_main_v39_apply, val_main_v37_apply, val_main_v35_apply, v33_eq, v34_eq, v36_eq, v38_eq,
    val_main_v31_apply, val_main_v30_apply, val_main_v29_apply, val_main_v28_apply, val_main_v27_apply,
    val_main_cst_8_apply, val_main_v26_apply, val_main_v25_apply, val_main_cst_7_apply, val_main_v24_apply,
    val_main_v23_apply, val_main_cst_6_apply, val_main_v22_apply, val_main_v21_apply, val_main_cst_5_apply,
    val_main_v20_apply, val_main_v19_apply, val_main_cst_4_apply, val_main_v18_apply, val_main_v17_apply,
    val_main_cst_3_apply, val_main_v16_apply, val_main_v15_apply, val_main_v14_apply, val_main_v13_apply,
    val_main_v12_apply, val_main_cst_2_apply, val_main_v11_apply, v10_eq, val_main_v8_apply, val_main_v7_apply,
    val_main_v6_apply, val_main_cst_1_apply, val_main_v5_apply, val_main_v4_apply, val_main_cst_0_apply,
    val_main_v3_apply, val_main_v2_apply, val_main_v1_apply, val_main_v0_apply, val_main_cst_apply,
    Ideal.mulf_def, Ideal.addf_def, Ideal.subf_def, Ideal.hostDivf_def, Ideal.hostAbsf_def, Ideal.ofBits_def]
  have hsum : Cert.Stencil.south x0 b r q + Cert.Stencil.north x0 b r q + Cert.Stencil.east x0 b r q
        + Cert.Stencil.west x0 b r q
      = Cert.Stencil.north x0 b r q + Cert.Stencil.south x0 b r q + Cert.Stencil.west x0 b r q
        + Cert.Stencil.east x0 b r q := by
    rw [add_comm (Cert.Stencil.south x0 b r q), add_right_comm]
  rw [hsum]
  rfl

/-- Every weakly fair execution of the reference ends with its result at the step of its arguments, and the
    arguments as they were. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v47)
            = Cert.Stencil.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono
    (fun _ h c => ⟨((h c).1.trans (Cert.ReferenceIdeal.Read.val_main_v47_eq m' c)).trans (ref_eq _ _ _ _ _),
      (h c).2.1, (h c).2.2.2.1, (h c).2.2.2.2.1, (h c).2.2.2.2.2.1, (h c).2.2.2.2.2.2⟩)
    (Cert.ReferenceIdeal.Value.run (F := Ideal) m' g')

end Cert.RefSide

end
-- ==== Proof.lean ====
/-
  The certificate: a Pallas kernel that takes one time step of a damped, weakly nonlinear wave equation on eight
  1024 x 1024 planes, in sixteen 512-row tiles with one-row halos fetched from the field array itself and the
  four neighbours of a cell built by rotations and edge masks, computes what the jnp reference computes by
  zero-padding the field and slicing it four ways.

  Over the extended reals both are the same function of the five argument arrays, `Stencil.G` (Spec.lean): the two
  programs apply the same operations with the same constants in the same grouping, but for the ORDER in which the
  four neighbours are added — ((north + south) + west) + east in the kernel, ((south + north) + east) + west in the
  reference —, and addition of extended reals is commutative and associative whatever the values, so the
  precondition (finite inputs) is never opened.

  The kernel's side: its frame and what each tile writes (FrameKI.lean, and FrameK.lean for the word-level program),
  the stored tile at a cell (PayloadKI.lean), the tiles assembled into the array (BlocksKI.lean). The reference's
  side: its run read stage by stage (RefSide.lean). The ideal pass rewrote nothing, so `preserves` is `True`.
-/
import proofs.«429730_j21887153340817_3_alg».proof.Defs
import proofs.«429730_j21887153340817_3_alg».proof.Proof.FrameK
import proofs.«429730_j21887153340817_3_alg».proof.Proof.FrameKI
import proofs.«429730_j21887153340817_3_alg».proof.Proof.BlocksKI
import proofs.«429730_j21887153340817_3_alg».proof.Proof.RefSide
import proofs.«429730_j21887153340817_3_alg».proof.Proof.Gen.ReferenceIdeal
import proofs.«429730_j21887153340817_3_alg».proof.Proof.Gen.Pre_finite_inputs

noncomputable section

namespace Cert.Proof

open Idealize.ShloMosaic Idealize.ShloMosaic.TcCoe Idealize.SL.Sem

/-- The word-level kernel: every input array is read only, so it ends as it began. -/
theorem frame_k : Cert.frame_Kernel := fun m ρ _ =>
  (θ_run Cert.Kernel.defs _ _).mono (fun r h c => ⟨(h c 0).trans ((Cert.Kernel.Hand.dats m 0 c).arrAt_in 0 rfl _),
      (h c 1).trans ((Cert.Kernel.Hand.dats m 0 c).arrAt_in 1 rfl _),
      (h c 2).trans ((Cert.Kernel.Hand.dats m 0 c).arrAt_in 2 rfl _),
      (h c 3).trans ((Cert.Kernel.Hand.dats m 0 c).arrAt_in 3 rfl _),
      (h c 4).trans ((Cert.Kernel.Hand.dats m 0 c).arrAt_in 4 rfl _)⟩)
    (Cert.Kernel.Hand.run_main (F := Bits) m ρ)

/-- The idealized kernel likewise. -/
theorem frame_ki : Cert.frame_KernelIdeal := fun m ρ _ =>
  (θ_run Cert.KernelIdeal.defs _ _).mono (fun r h c => ⟨(h c 0).trans ((Cert.KernelIdeal.Hand.dats m 0 c).arrAt_in 0 rfl _),
      (h c 1).trans ((Cert.KernelIdeal.Hand.dats m 0 c).arrAt_in 1 rfl _),
      (h c 2).trans ((Cert.KernelIdeal.Hand.dats m 0 c).arrAt_in 2 rfl _),
      (h c 3).trans ((Cert.KernelIdeal.Hand.dats m 0 c).arrAt_in 3 rfl _),
      (h c 4).trans ((Cert.KernelIdeal.Hand.dats m 0 c).arrAt_in 4 rfl _)⟩)
    (Cert.KernelIdeal.Hand.run_main (F := Ideal) m ρ)

/-- The reference: its run, the result dropped. -/
theorem frame_ri : Cert.frame_ReferenceIdeal := fun m ρ _ =>
  (θ_run Cert.ReferenceIdeal.defs _ _).mono (fun _ h c => (h c).2) (Cert.RefSide.run m ρ)

/-- Both idealized programs end with the step `Stencil.G` of their arguments in their result, and with the field
    array, which both return, as it was; the arguments agree, so the results do. -/
theorem algebraic : Cert.algebraic_KernelIdeal_ReferenceIdeal := by
  intro m ρ m' ρ' _ hagree
  refine ⟨fun c => Cert.KernelIdeal.Hand.GV m c, fun c => m ((c.tc : Thread Cert.KernelIdeal.nD Cert.KernelIdeal.τ).loc Cert.KernelIdeal.main_arg0), ?_, ?_⟩
  · exact (θ_run Cert.KernelIdeal.defs _ _).mono (fun r h c => ⟨(h c 7).trans (Cert.KernelIdeal.Hand.final7 m c),
      (h c 0).trans ((Cert.KernelIdeal.Hand.dats m 0 c).arrAt_in 0 rfl _),
      (h c 0).trans ((Cert.KernelIdeal.Hand.dats m 0 c).arrAt_in 0 rfl _),
      (h c 1).trans ((Cert.KernelIdeal.Hand.dats m 0 c).arrAt_in 1 rfl _),
      (h c 2).trans ((Cert.KernelIdeal.Hand.dats m 0 c).arrAt_in 2 rfl _),
      (h c 3).trans ((Cert.KernelIdeal.Hand.dats m 0 c).arrAt_in 3 rfl _),
      (h c 4).trans ((Cert.KernelIdeal.Hand.dats m 0 c).arrAt_in 4 rfl _)⟩)
      (Cert.KernelIdeal.Hand.run_main (F := Ideal) m ρ)
  · refine (θ_run Cert.ReferenceIdeal.defs _ _).mono (fun r h c => ⟨(h c).1.trans ?_, (h c).2.1.trans (hagree c).1,
      (h c).2.1, (h c).2.2.1, (h c).2.2.2.1, (h c).2.2.2.2.1, (h c).2.2.2.2.2⟩) (Cert.RefSide.run m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
